-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩
abbrev S1x800000 : Shape := ⟨2, ![1, 800000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg1 : IVec S2x800000 32) (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_v33 : IVec S1x800000 32 := (extractStridedSlice S1x800000 ![0, 0] · slices_S2x800000_S1x800000_0_0) main_arg1
  let main_v34 : IVec S800000 32 := shapeCast S800000 main_v33 shapeCasts_S1x800000_S800000
  fn_part2 (F := F) main_v28 main_v32 main_v34

def fn {F : FTy → Type} [FloatOps F] (main_arg0 : FVec F S50000x512 .f32) (main_arg1 : IVec S2x800000 32) (main_arg2 : FVec F S800000 .f32) (main_arg3 : FVec F S512x64 .f32) (main_arg4 : FVec F S64 .f32) (main_arg5 : FVec F S64x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000x1 : Shape := ⟨2, ![800000, 1]⟩
abbrev S1x64 : Shape := ⟨2, ![1, 64]⟩
abbrev S50000x64 : Shape := ⟨2, ![50000, 64]⟩
abbrev S5000x512 : Shape := ⟨2, ![5000, 512]⟩
abbrev S5000x64 : Shape := ⟨2, ![5000, 64]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S8000x64 : Shape := ⟨2, ![8000, 64]⟩
abbrev S8000x1 : Shape := ⟨2, ![8000, 1]⟩
abbrev S1x40 : Shape := ⟨2, ![1, 40]⟩
abbrev S50000x40 : Shape := ⟨2, ![50000, 40]⟩
abbrev S5000x40 : Shape := ⟨2, ![5000, 40]⟩
abbrev S800000x40 : Shape := ⟨2, ![800000, 40]⟩
abbrev S8000x40 : Shape := ⟨2, ![8000, 40]⟩
abbrev S5000 : Shape := ⟨1, ![5000]⟩
abbrev S5000x1 : Shape := ⟨2, ![5000, 1]⟩

abbrev nBuf : Space → Nat
  | .hbm => 73
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S1x64, .f32⟩
  | .hbm, ⟨13, _⟩ => ⟨S50000x64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x64, .f32⟩
  | .hbm, ⟨33, _⟩ => ⟨S800000x64, .i1⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x40, .f32⟩
  | .hbm, ⟨43, _⟩ => ⟨S50000x40, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x40, .f32⟩
  | .hbm, ⟨63, _⟩ => ⟨S800000x40, .i1⟩
  | .hbm, ⟨64, _⟩ => ⟨S_, .f32⟩
  | .hbm, ⟨65, _⟩ => ⟨S800000x40, .f32⟩
  | .hbm, ⟨66, _⟩ => ⟨S800000x40, .f32⟩
  | .hbm, ⟨67, _⟩ => ⟨S800000x40, .f32⟩
  | .hbm, ⟨68, _⟩ => ⟨S_, .f32⟩
  | .hbm, ⟨69, _⟩ => ⟨S50000x40, .f32⟩
  | .hbm, ⟨70, _⟩ => ⟨S800000x1, .i32⟩
  | .hbm, ⟨71, _⟩ => ⟨S50000x40, .f32⟩
  | .hbm, ⟨72, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S8000x1, .f32⟩
  | .local _ .vmem, ⟨9, _⟩ => ⟨S8000x1, .f32⟩
  | .local _ .vmem, ⟨10, _⟩ => ⟨S8000x64, .f32⟩
  | .local _ .vmem, ⟨11, _⟩ => ⟨S8000x64, .f32⟩
  | .local _ .vmem, ⟨12, _⟩ => ⟨S5000x64, .f32⟩
  | .local _ .vmem, ⟨13, _⟩ => ⟨S5000x64, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | .local _ .vmem, ⟨18, _⟩ => ⟨S8000x40, .f32⟩
  | .local _ .vmem, ⟨19, _⟩ => ⟨S8000x40, .f32⟩
  | .local _ .vmem, ⟨20, _⟩ => ⟨S8000x1, .f32⟩
  | .local _ .vmem, ⟨21, _⟩ => ⟨S8000x1, .f32⟩
  | .local _ .vmem, ⟨22, _⟩ => ⟨S8000x40, .f32⟩
  | .local _ .vmem, ⟨23, _⟩ => ⟨S8000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v14 : Ref sig .tc := ⟨.hbm, 66, rfl⟩
abbrev main_v15 : Ref sig .tc := ⟨.hbm, 67, rfl⟩
abbrev main_cst_0 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  shapeCasts_S40_S1x40 : S40.ShapeCasts S1x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S800000_S800000x40_0 : S800000.BroadcastsInDim S800000x40 (![0] : Fin 1 → Fin S800000x40.rank)
  bcast_S_S800000x40 : S_.BroadcastsInDim S800000x40 (![] : Fin 0 → Fin S800000x40.rank)
  inb_S8000x40_S8000x40_0_0 : ∀ a, (![0, 0] : Fin 2 → Nat) a + S8000x40.size a ≤ S8000x40.size a
  h_S8000x40 : 0 < S8000x40.numel
  shapeCasts_S8000x40_S8000x40 : S8000x40.ShapeCasts S8000x40
  broadcasts_S8000x1_S8000x40 : S8000x1.Broadcasts S8000x40
  bcast_S_S50000x40 : S_.BroadcastsInDim S50000x40 (![] : Fin 0 → Fin S50000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x512_S512x64_S5000x64_1_0_0_1_n_n_wf : DotDims.WF S5000x512 S512x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x40.size a ≤ S800000x40.size a
  hwx3_0 : ∀ i : grid3.Coords, EltTy.bits .f32 = 32 ∨ (Rect.block (s := S800000x40) S8000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S800000x1.size a
  hwx3_1 : ∀ i : grid3.Coords, EltTy.bits .f32 = 32 ∨ (Rect.block (s := S800000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x40.size a ≤ S800000x40.size a
  hwx3_2 : ∀ i : grid3.Coords, EltTy.bits .f32 = 32 ∨ (Rect.block (s := S800000x40) S8000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S50000x40.size a
  hwx4_0 : ∀ i : grid4.Coords, EltTy.bits .f32 = 32 ∨ (Rect.block (s := S50000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S50000x40.size a
  hwx4_1 : ∀ i : grid4.Coords, EltTy.bits .f32 = 32 ∨ (Rect.block (s := S50000x40) S5000x40.size (cc4_transform_1 i) (hinb4_1 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S8000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S8000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v18) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S50000x64 : Shape := ⟨2, ![50000, 64]⟩
abbrev S1x64 : Shape := ⟨2, ![1, 64]⟩
abbrev S800000x1 : Shape := ⟨2, ![800000, 1]⟩
abbrev S_ : Shape := ⟨0, ![]⟩
abbrev S800000x64 : Shape := ⟨2, ![800000, 64]⟩
abbrev S50000x40 : Shape := ⟨2, ![50000, 40]⟩
abbrev S1x40 : Shape := ⟨2, ![1, 40]⟩
abbrev S800000x40 : Shape := ⟨2, ![800000, 40]⟩
abbrev S50000 : Shape := ⟨1, ![50000]⟩
abbrev S50000x1 : Shape := ⟨2, ![50000, 1]⟩

abbrev nBuf : Space → Nat
  | .hbm => 69
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x64, .f32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S50000x40, .f32⟩
  | .hbm, ⟨35, _⟩ => ⟨S1x40, .f32⟩
  | .hbm, ⟨36, _⟩ => ⟨S50000x40, .f32⟩
  | .hbm, ⟨37, _⟩ => ⟨S50000x40, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x40, .f32⟩
  | .hbm, ⟨48, _⟩ => ⟨S800000x40, .f32⟩
  | .hbm, ⟨49, _⟩ => ⟨S800000x40, .f32⟩
  | .hbm, ⟨50, _⟩ => ⟨S_, .f32⟩
  | .hbm, ⟨51, _⟩ => ⟨S50000x40, .f32⟩
  | .hbm, ⟨52, _⟩ => ⟨S800000x1, .i32⟩
  | .hbm, ⟨53, _⟩ => ⟨S50000x40, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x40, .f32⟩
  | .hbm, ⟨61, _⟩ => ⟨S50000x40, .f32⟩
  | .hbm, ⟨62, _⟩ => ⟨S50000x40, .f32⟩
  | .hbm, ⟨63, _⟩ => ⟨S_, .f32⟩
  | .hbm, ⟨64, _⟩ => ⟨S50000, .f32⟩
  | .hbm, ⟨65, _⟩ => ⟨S50000x1, .f32⟩
  | .hbm, ⟨66, _⟩ => ⟨S50000x1, .f32⟩
  | .hbm, ⟨67, _⟩ => ⟨S50000x40, .f32⟩
  | .hbm, ⟨68, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x64_S50000x64_1_0_0_1_n_n_wf : DotDims.WF S50000x512 S512x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.Region0.lean ====
/-
  The first linear layer's launch: 10 grid points, point t taking rows 5000·t … 5000·t + 4999 of the node
  features [50000, 512] with the whole weight matrix [512, 64] and the bias row [1, 64], and writing back the same
  rows of features · weights + bias. Over the extended reals the narrowing of both factors before the product is
  the identity and the product into a zero accumulator is the plain sum over the 512 columns, so the output array
  as a whole is the affine map applied to every row.
-/
import proofs.«428991_j8186207667012_2_alg».proof.Proof.Gen.KernelIdeal.Frame
import proofs.«428991_j8186207667012_2_alg».proof.Proof.LibContract
import Idealize.ShloMosaic.Lib.Pipeline.Value
import Idealize.ShloMosaic.Lib.ValueIdx

noncomputable section

namespace Cert.KernelIdeal.Linear0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Row r of x times column j of w, plus the bias of column j. -/
abbrev affine (x : S50000x512.Idx → EReal) (w : S512x64.Idx → EReal) (b : S1x64.Idx → EReal) : S50000x64.Idx → EReal :=
  fun i => (∑ k : Fin 512, x (ix2 (⟨(i 0).val, (i 0).isLt⟩ : Fin 50000) k) * w (ix2 k (⟨(i 1).val, (i 1).isLt⟩ : Fin 64)))
    + b (ix2 (0 : Fin 1) (⟨(i 1).val, (i 1).isLt⟩ : Fin 64))

/-- The affine map at an entry whose coordinates are known. -/
theorem affine_apply (x : S50000x512.Idx → EReal) (w : S512x64.Idx → EReal) (b : S1x64.Idx → EReal) (i : S50000x64.Idx)
    (r : Fin 50000) (q : Fin 64) (h0 : (i 0).val = r.val) (h1 : (i 1).val = q.val) :
    affine x w b i = (∑ k : Fin 512, x (ix2 r k) * w (ix2 k q)) + b (ix2 (0 : Fin 1) q) := by
  have e : i = ix2 r q := funext fun a => match a with
    | ⟨0, _⟩ => Fin.ext h0
    | ⟨1, _⟩ => Fin.ext h1
  subst e; rfl

/-- The features, the weights and the bias row as the launch finds them. -/
abbrev xin (c : Dev nD) : S50000x512.Idx → EReal := V c (Pipeline.arrRef spec0 0)
abbrev wts (c : Dev nD) : S512x64.Idx → EReal := V c (Pipeline.arrRef spec0 1)
abbrev bias (c : Dev nD) : S1x64.Idx → EReal := V c (Pipeline.arrRef spec0 2)

/-- The body's value at entry (r, j) of the block: the sum over the 512 columns of the products, plus the bias. -/
theorem pay_apply (x0 : Vec Ideal S5000x512 .f32) (x1 : Vec Ideal S512x64 .f32) (x2 : Vec Ideal S1x64 .f32)
    (r : Fin 5000) (j : Fin 64) :
    k0_pay1 x0 x1 x2 (ix2 r j) = (∑ k : Fin 512, x0 (ix2 r k) * x1 (ix2 k j)) + x2 (ix2 (0 : Fin 1) j) := by
  unfold k0_pay1
  simp only [shapeCast_self]
  rw [addf_apply]
  congr 1
  · exact Cert.LibContract.matmul_plain dot_S5000x512_S512x64_S5000x64_1_0_0_1_n_n rfl rfl rfl rfl rfl rfl none _ _ r j
  · exact broadcastTo_apply _ broadcasts_S1x64_S5000x64 (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])

/-- The feature and output windows move together down the rows; the weights and the bias stay. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_3.index t (0 : Fin 2) ≤ 9 :=
  (by decide +kernel : ∀ t : Fin grid0.N, _)

/-- Every block of rows is some point's. -/
theorem idx_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the affine map of the three arrays. -/
theorem flushed_eq (c : Dev nD) (t : Fin cfg0.N) :
    (dat0 V c).flushed 3 t = ((cfg0.win 3).blk t).view.read (Elt Ideal)
      (affine (xin V c) (wts V c) (bias V c)) := by
  show (cfg0.win 3).cut (grid0.coords t) ((dat0 V c).after 3 t) = _
  rw [after0_3]
  unfold out0_3
  rw [View.canon_unit_zero origin]
  simp only [View.ld_unit_zero (S := S5000x512) origin, View.ld_unit_zero (S := S512x64) origin, View.ld_unit_zero (S := S1x64) origin]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) (iblk0 V c 2 t) p q).trans ?_
  have hrow : win0_3.index t (0 : Fin 2) * 5000 + p.val < 50000 := by have := p.isLt; omega
  refine Eq.trans ?_ (affine_apply (xin V c) (wts V c) (bias V c) (((cfg0.win 3).blk t).view.emb (ix2 p q))
    ⟨win0_3.index t (0 : Fin 2) * 5000 + p.val, hrow⟩ q
    (by show win0_3.index t (0 : Fin 2) * 5000 + 1 * p.val = win0_3.index t (0 : Fin 2) * 5000 + p.val; omega)
    (by show win0_3.index t (1 : Fin 2) * 64 + 1 * q.val = q.val; omega)).symm
  show (∑ k : Fin 512, xin V c (((cfg0.win 0).blk t).view.emb (ix2 p k)) * wts V c (((cfg0.win 1).blk t).view.emb (ix2 k q)))
      + bias V c (((cfg0.win 2).blk t).view.emb (ix2 (0 : Fin 1) q))
    = (∑ k : Fin 512, xin V c (ix2 (⟨win0_3.index t (0 : Fin 2) * 5000 + p.val, hrow⟩ : Fin 50000) k) * wts V c (ix2 k q))
      + bias V c (ix2 (0 : Fin 1) q)
  have hx : ∀ k : Fin 512, ((cfg0.win 0).blk t).view.emb (ix2 p k) = ix2 (⟨win0_3.index t (0 : Fin 2) * 5000 + p.val, hrow⟩ : Fin 50000) k := by
    intro k; funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 512 + 1 * k.val = k.val; omega
  have hw : ∀ k : Fin 512, ((cfg0.win 1).blk t).view.emb (ix2 k q) = ix2 k q := by
    intro k; funext a; apply Fin.ext
    match a with
    | ⟨0, _⟩ => show win0_1.index t (0 : Fin 2) * 512 + 1 * k.val = k.val; omega
    | ⟨1, _⟩ => show win0_1.index t (1 : Fin 2) * 64 + 1 * q.val = q.val; omega
  have hb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [hb]
  congr 1
  exact Finset.sum_congr rfl fun k _ => by rw [hx k, hw k]

/-- An entry is in point `t`'s block iff each coordinate is in the block's range. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

/-- The blocks cover the array: row r lies in the block of point r / 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the launch: the affine map of the features, the weights and the bias row. -/
theorem final (c : Dev nD) : (dat0 V c).arrAt 3 cfg0.N = affine (xin V c) (wts V c) (bias V c) :=
  (dat0 V c).arrAt_eq_of_cover 3 _ (fun t _ => flushed_eq V c t) cover

end Cert.KernelIdeal.Linear0

end
-- ==== Proof.Region1.lean ====
/-
  The first row-scaling launch: 100 grid points, point t taking rows 8000·t … 8000·t + 7999 of a message matrix
  [800000, 64] and of a weight column [800000, 1], and writing back the same rows of the product. Read as a whole:
  the output array is the message matrix with row e multiplied by the weight of row e.
-/
import proofs.«428991_j8186207667012_2_alg».proof.Proof.Gen.KernelIdeal.Frame
import Idealize.ShloMosaic.Lib.Pipeline.Value
import Idealize.ShloMosaic.Lib.ValueIdx

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entry of a one-column matrix in the row of `i`. -/
abbrev rowOf {n k : Nat} (i : (⟨2, ![n, k]⟩ : Shape).Idx) : (⟨2, ![n, 1]⟩ : Shape).Idx := fun a => match a with
  | ⟨0, _⟩ => ⟨(i 0).val, (i 0).isLt⟩
  | ⟨1, _⟩ => ⟨0, Nat.one_pos⟩

/-- Row `e` of the messages times the weight of row `e`. -/
abbrev scaled (g : S800000x64.Idx → EReal) (w : S800000x1.Idx → EReal) : S800000x64.Idx → EReal :=
  fun i => g i * w (rowOf i)

/-- The message matrix and the weight column as the launch finds them. -/
abbrev msg (c : Dev nD) : S800000x64.Idx → EReal := V c (Pipeline.arrRef spec1 0)
abbrev wcol (c : Dev nD) : S800000x1.Idx → EReal := V c (Pipeline.arrRef spec1 1)

/-- The body's product at an entry of the block: the message entry times the weight in its row. -/
theorem pay_apply (x0 : Vec Ideal S8000x64 .f32) (x1 : Vec Ideal S8000x1 .f32) (j : S8000x64.Idx) :
    k1_pay1 x0 x1 j = x0 j * x1 (rowOf j) := by
  unfold k1_pay1
  simp only [shapeCast_self]
  rw [mulf_apply]
  congr 1
  exact broadcastTo_apply _ broadcasts_S8000x1_S8000x64 j (rowOf j) (fun a => match a with
    | ⟨0, _⟩ => by show (j 0).val = if (8000 : Nat) = 1 then 0 else (j 0).val; rw [if_neg (by decide)]
    | ⟨1, _⟩ => by show 0 = if (1 : Nat) = 1 then 0 else (j 1).val; rw [if_pos rfl])

/-- The three windows move together: block t of each is rows 8000·t onward, in column block 0. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) ≤ 99 :=
  (by decide +kernel : ∀ t : Fin grid1.N, _)

/-- Every block of rows is some point's. -/
theorem idx_onto : ∀ q : Fin 100, ∃ t : Fin cfg1.N, win1_2.index t = ![q.val, 0] :=
  (by decide +kernel : ∀ q : Fin 100, ∃ t : Fin grid1.N, win1_2.index t = ![q.val, 0])

/-- What point `t` writes back is block `t` of the scaled matrix. -/
theorem flushed_eq (c : Dev nD) (t : Fin cfg1.N) :
    (dat1 V c).flushed 2 t = ((cfg1.win 2).blk t).view.read (Elt Ideal)
      (scaled (msg V c) (wcol V c)) := by
  show (cfg1.win 2).cut (grid1.coords t) ((dat1 V c).after 2 t) = _
  rw [after1_2]
  unfold out1_2
  rw [View.canon_unit_zero origin]
  simp only [View.ld_unit_zero (S := S8000x64) origin, View.ld_unit_zero (S := S8000x1) origin]
  obtain ⟨e0, e1, e2, e3, e4, e5⟩ := idx_facts t
  funext j
  refine (pay_apply (iblk1 V c 0 t) (iblk1 V c 1 t) j).trans ?_
  show msg V c (((cfg1.win 0).blk t).view.emb j) * wcol V c (((cfg1.win 1).blk t).view.emb (rowOf j))
    = msg V c (((cfg1.win 2).blk t).view.emb j) * wcol V c (rowOf (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (rowOf j) = rowOf (((cfg1.win 2).blk t).view.emb j) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]

/-- An entry is in point `t`'s block iff each coordinate is in the block's range. -/
theorem mem_blk (t : Fin cfg1.N) (i : S800000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v8).slice (win1_2.rect t)).set ↔ _
  rw [View.set_slice_whole, Rect.mem_set_unit]
  exact Iff.rfl

/-- The blocks cover the array: row r lies in the block of point r / 8000. -/
theorem cover (i : S800000x64.Idx) : ∃ t : Fin cfg1.N, (cfg1.win 2).flush t = true ∧ i ∈ ((cfg1.win 2).blk t).view.set := by
  have hi0 : (i 0).val < 800000 := (i 0).isLt
  have hi1 : (i 1).val < 64 := (i 1).isLt
  obtain ⟨t, ht⟩ := idx_onto ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- The output array after the launch: the messages with each row scaled by its weight. -/
theorem final (c : Dev nD) : (dat1 V c).arrAt 2 cfg1.N
    = scaled (msg V c) (wcol V c) :=
  (dat1 V c).arrAt_eq_of_cover 2 _ (fun t _ => flushed_eq V c t) cover

end Cert.KernelIdeal.Scale1

end
-- ==== Proof.Region2.lean ====
/-
  The second linear layer's launch: 10 grid points, point t taking rows 5000·t … 5000·t + 4999 of the aggregated
  hidden features [50000, 64] with the whole weight matrix [64, 40] and the bias row [1, 40]. The body first
  replaces every entry by its maximum with zero, then multiplies and adds the bias; over the extended reals the
  narrowing of both factors is the identity and the product into a zero accumulator is the plain sum over the 64
  columns. The output array as a whole is that map applied to every row.
-/
import proofs.«428991_j8186207667012_2_alg».proof.Proof.Gen.KernelIdeal.Frame
import proofs.«428991_j8186207667012_2_alg».proof.Proof.LibContract
import Idealize.ShloMosaic.Lib.Pipeline.Value
import Idealize.ShloMosaic.Lib.ValueIdx

noncomputable section

namespace Cert.KernelIdeal.Linear2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The value the zero word denotes. -/
abbrev zeroW : EReal := Ideal.ofBits .f32 0x00000000#32

/-- Row r of max(x, 0) times column j of w, plus the bias of column j. -/
abbrev affine (x : S50000x64.Idx → EReal) (w : S64x40.Idx → EReal) (b : S1x40.Idx → EReal) : S50000x40.Idx → EReal :=
  fun i => (∑ k : Fin 64, max (x (ix2 (⟨(i 0).val, (i 0).isLt⟩ : Fin 50000) k)) zeroW * w (ix2 k (⟨(i 1).val, (i 1).isLt⟩ : Fin 40)))
    + b (ix2 (0 : Fin 1) (⟨(i 1).val, (i 1).isLt⟩ : Fin 40))

/-- The affine map at an entry whose coordinates are known. -/
theorem affine_apply (x : S50000x64.Idx → EReal) (w : S64x40.Idx → EReal) (b : S1x40.Idx → EReal) (i : S50000x40.Idx)
    (r : Fin 50000) (q : Fin 40) (h0 : (i 0).val = r.val) (h1 : (i 1).val = q.val) :
    affine x w b i = (∑ k : Fin 64, max (x (ix2 r k)) zeroW * w (ix2 k q)) + b (ix2 (0 : Fin 1) q) := by
  have e : i = ix2 r q := funext fun a => match a with
    | ⟨0, _⟩ => Fin.ext h0
    | ⟨1, _⟩ => Fin.ext h1
  subst e; rfl

/-- The hidden features, the weights and the bias row as the launch finds them. -/
abbrev xin (c : Dev nD) : S50000x64.Idx → EReal := V c (Pipeline.arrRef spec2 0)
abbrev wts (c : Dev nD) : S64x40.Idx → EReal := V c (Pipeline.arrRef spec2 1)
abbrev bias (c : Dev nD) : S1x40.Idx → EReal := V c (Pipeline.arrRef spec2 2)

/-- The body's value at entry (r, j) of the block: the sum over the 64 columns of the products of the clipped entries, plus the bias. -/
theorem pay_apply (x0 : Vec Ideal S5000x64 .f32) (x1 : Vec Ideal S64x40 .f32) (x2 : Vec Ideal S1x40 .f32)
    (r : Fin 5000) (j : Fin 40) :
    k2_pay1 x0 x1 x2 (ix2 r j) = (∑ k : Fin 64, max (x0 (ix2 r k)) zeroW * x1 (ix2 k j)) + x2 (ix2 (0 : Fin 1) j) := by
  unfold k2_pay1
  simp only [shapeCast_self]
  rw [addf_apply]
  congr 1
  · exact Cert.LibContract.matmul_plain dot_S5000x64_S64x40_S5000x40_1_0_0_1_n_n rfl rfl rfl rfl rfl rfl none _ _ r j
  · exact broadcastTo_apply _ broadcasts_S1x40_S5000x40 (ix2 r j) (ix2 (0 : Fin 1) j) (fun a => match a with
      | ⟨0, _⟩ => by show 0 = if (1 : Nat) = 1 then 0 else r.val; rw [if_pos rfl]
      | ⟨1, _⟩ => by show j.val = if (40 : Nat) = 1 then 0 else j.val; rw [if_neg (by decide)])

/-- The feature and output windows move together down the rows; the weights and the bias stay. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0
    ∧ win2_3.index t (0 : Fin 2) ≤ 9 :=
  (by decide +kernel : ∀ t : Fin grid2.N, _)

/-- Every block of rows is some point's. -/
theorem idx_onto : ∀ q : Fin 10, ∃ t : Fin cfg2.N, win2_3.index t = ![q.val, 0] :=
  (by decide +kernel : ∀ q : Fin 10, ∃ t : Fin grid2.N, win2_3.index t = ![q.val, 0])

/-- What point `t` writes back is block `t` of the affine map of the three arrays. -/
theorem flushed_eq (c : Dev nD) (t : Fin cfg2.N) :
    (dat2 V c).flushed 3 t = ((cfg2.win 3).blk t).view.read (Elt Ideal)
      (affine (xin V c) (wts V c) (bias V c)) := by
  show (cfg2.win 3).cut (grid2.coords t) ((dat2 V c).after 3 t) = _
  rw [after2_3]
  unfold out2_3
  rw [View.canon_unit_zero origin]
  simp only [View.ld_unit_zero (S := S5000x64) origin, View.ld_unit_zero (S := S64x40) origin, View.ld_unit_zero (S := S1x40) origin]
  obtain ⟨e0, e1, e2, e3, e4, e5, e6, e7⟩ := idx_facts t
  funext j
  obtain ⟨p, q, rfl⟩ : ∃ (p : Fin 5000) (q : Fin 40), j = ix2 p q := ⟨j 0, j 1, eq_ix2 j⟩
  refine (pay_apply (iblk2 V c 0 t) (iblk2 V c 1 t) (iblk2 V c 2 t) p q).trans ?_
  have hrow : win2_3.index t (0 : Fin 2) * 5000 + p.val < 50000 := by have := p.isLt; omega
  refine Eq.trans ?_ (affine_apply (xin V c) (wts V c) (bias V c) (((cfg2.win 3).blk t).view.emb (ix2 p q))
    ⟨win2_3.index t (0 : Fin 2) * 5000 + p.val, hrow⟩ q
    (by show win2_3.index t (0 : Fin 2) * 5000 + 1 * p.val = win2_3.index t (0 : Fin 2) * 5000 + p.val; omega)
    (by show win2_3.index t (1 : Fin 2) * 40 + 1 * q.val = q.val; omega)).symm
  show (∑ k : Fin 64, max (xin V c (((cfg2.win 0).blk t).view.emb (ix2 p k))) zeroW * wts V c (((cfg2.win 1).blk t).view.emb (ix2 k q)))
      + bias V c (((cfg2.win 2).blk t).view.emb (ix2 (0 : Fin 1) q))
    = (∑ k : Fin 64, max (xin V c (ix2 (⟨win2_3.index t (0 : Fin 2) * 5000 + p.val, hrow⟩ : Fin 50000) k)) zeroW * wts V c (ix2 k q))
      + bias V c (ix2 (0 : Fin 1) q)
  have hx : ∀ k : Fin 64, ((cfg2.win 0).blk t).view.emb (ix2 p k) = ix2 (⟨win2_3.index t (0 : Fin 2) * 5000 + p.val, hrow⟩ : Fin 50000) k := by
    intro k; funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 64 + 1 * k.val = k.val; omega
  have hw : ∀ k : Fin 64, ((cfg2.win 1).blk t).view.emb (ix2 k q) = ix2 k q := by
    intro k; funext a; apply Fin.ext
    match a with
    | ⟨0, _⟩ => show win2_1.index t (0 : Fin 2) * 64 + 1 * k.val = k.val; omega
    | ⟨1, _⟩ => show win2_1.index t (1 : Fin 2) * 40 + 1 * q.val = q.val; omega
  have hb : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 40 + 1 * q.val = q.val; omega
  rw [hb]
  congr 1
  exact Finset.sum_congr rfl fun k _ => by rw [hx k, hw k]

/-- An entry is in point `t`'s block iff each coordinate is in the block's range. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v13).slice (win2_3.rect t)).set ↔ _
  rw [View.set_slice_whole, Rect.mem_set_unit]
  exact Iff.rfl

/-- The blocks cover the array: row r lies in the block of point r / 5000. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- The output array after the launch: the affine map of the features, the weights and the bias row. -/
theorem final (c : Dev nD) : (dat2 V c).arrAt 3 cfg2.N = affine (xin V c) (wts V c) (bias V c) :=
  (dat2 V c).arrAt_eq_of_cover 3 _ (fun t _ => flushed_eq V c t) cover

end Cert.KernelIdeal.Linear2

end
-- ==== Proof.Region3.lean ====
/-
  The second row-scaling launch: 100 grid points, point t taking rows 8000·t … 8000·t + 7999 of a message matrix
  [800000, 40] and of a weight column [800000, 1], and writing back the same rows of the product. Read as a whole:
  the output array is the message matrix with row e multiplied by the weight of row e.
-/
import proofs.«428991_j8186207667012_2_alg».proof.Proof.Gen.KernelIdeal.Frame
import Idealize.ShloMosaic.Lib.Pipeline.Value
import Idealize.ShloMosaic.Lib.ValueIdx

noncomputable section

namespace Cert.KernelIdeal.Scale3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entry of a one-column matrix in the row of `i`. -/
abbrev rowOf {n k : Nat} (i : (⟨2, ![n, k]⟩ : Shape).Idx) : (⟨2, ![n, 1]⟩ : Shape).Idx := fun a => match a with
  | ⟨0, _⟩ => ⟨(i 0).val, (i 0).isLt⟩
  | ⟨1, _⟩ => ⟨0, Nat.one_pos⟩

/-- Row `e` of the messages times the weight of row `e`. -/
abbrev scaled (g : S800000x40.Idx → EReal) (w : S800000x1.Idx → EReal) : S800000x40.Idx → EReal :=
  fun i => g i * w (rowOf i)

/-- The message matrix and the weight column as the launch finds them. -/
abbrev msg (c : Dev nD) : S800000x40.Idx → EReal := V c (Pipeline.arrRef spec3 0)
abbrev wcol (c : Dev nD) : S800000x1.Idx → EReal := V c (Pipeline.arrRef spec3 1)

/-- The body's product at an entry of the block: the message entry times the weight in its row. -/
theorem pay_apply (x0 : Vec Ideal S8000x40 .f32) (x1 : Vec Ideal S8000x1 .f32) (j : S8000x40.Idx) :
    k3_pay1 x0 x1 j = x0 j * x1 (rowOf j) := by
  unfold k3_pay1
  simp only [shapeCast_self]
  rw [mulf_apply]
  congr 1
  exact broadcastTo_apply _ broadcasts_S8000x1_S8000x40 j (rowOf j) (fun a => match a with
    | ⟨0, _⟩ => by show (j 0).val = if (8000 : Nat) = 1 then 0 else (j 0).val; rw [if_neg (by decide)]
    | ⟨1, _⟩ => by show 0 = if (1 : Nat) = 1 then 0 else (j 1).val; rw [if_pos rfl])

/-- The three windows move together: block t of each is rows 8000·t onward, in column block 0. -/
theorem idx_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (1 : Fin 2) = 0
    ∧ win3_2.index t (0 : Fin 2) ≤ 99 :=
  (by decide +kernel : ∀ t : Fin grid3.N, _)

/-- Every block of rows is some point's. -/
theorem idx_onto : ∀ q : Fin 100, ∃ t : Fin cfg3.N, win3_2.index t = ![q.val, 0] :=
  (by decide +kernel : ∀ q : Fin 100, ∃ t : Fin grid3.N, win3_2.index t = ![q.val, 0])

/-- What point `t` writes back is block `t` of the scaled matrix. -/
theorem flushed_eq (c : Dev nD) (t : Fin cfg3.N) :
    (dat3 V c).flushed 2 t = ((cfg3.win 2).blk t).view.read (Elt Ideal)
      (scaled (msg V c) (wcol V c)) := by
  show (cfg3.win 2).cut (grid3.coords t) ((dat3 V c).after 2 t) = _
  rw [after3_2]
  unfold out3_2
  rw [View.canon_unit_zero origin]
  simp only [View.ld_unit_zero (S := S8000x40) origin, View.ld_unit_zero (S := S8000x1) origin]
  obtain ⟨e0, e1, e2, e3, e4, e5⟩ := idx_facts t
  funext j
  refine (pay_apply (iblk3 V c 0 t) (iblk3 V c 1 t) j).trans ?_
  show msg V c (((cfg3.win 0).blk t).view.emb j) * wcol V c (((cfg3.win 1).blk t).view.emb (rowOf j))
    = msg V c (((cfg3.win 2).blk t).view.emb j) * wcol V c (rowOf (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 40 + 1 * (j 1).val = win3_2.index t (1 : Fin 2) * 40 + 1 * (j 1).val; omega
  have h1 : ((cfg3.win 1).blk t).view.emb (rowOf j) = rowOf (((cfg3.win 2).blk t).view.emb j) := by
    funext a; apply Fin.ext
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 1 + 1 * 0 = 0; omega
  rw [h0, h1]

/-- An entry is in point `t`'s block iff each coordinate is in the block's range. -/
theorem mem_blk (t : Fin cfg3.N) (i : S800000x40.Idx) :
    i ∈ ((cfg3.win 2).blk t).view.set ↔ ∀ a : Fin 2, win3_2.index t a * S8000x40.size a ≤ (i a).val ∧ (i a).val < win3_2.index t a * S8000x40.size a + S8000x40.size a := by
  show i ∈ ((View.whole main_v15).slice (win3_2.rect t)).set ↔ _
  rw [View.set_slice_whole, Rect.mem_set_unit]
  exact Iff.rfl

/-- The blocks cover the array: row r lies in the block of point r / 8000. -/
theorem cover (i : S800000x40.Idx) : ∃ t : Fin cfg3.N, (cfg3.win 2).flush t = true ∧ i ∈ ((cfg3.win 2).blk t).view.set := by
  have hi0 : (i 0).val < 800000 := (i 0).isLt
  have hi1 : (i 1).val < 40 := (i 1).isLt
  obtain ⟨t, ht⟩ := idx_onto ⟨(i 0).val / 8000, by omega⟩
  have q0 : win3_2.index t (0 : Fin 2) = (i 0).val / 8000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 40 ≤ (i 1).val ∧ (i 1).val < win3_2.index t (1 : Fin 2) * 40 + 40; omega

/-- The output array after the launch: the messages with each row scaled by its weight. -/
theorem final (c : Dev nD) : (dat3 V c).arrAt 2 cfg3.N
    = scaled (msg V c) (wcol V c) :=
  (dat3 V c).arrAt_eq_of_cover 2 _ (fun t _ => flushed_eq V c t) cover

end Cert.KernelIdeal.Scale3

end
-- ==== Proof.TakeValue.lean ====
/-
  The kernel's row take (its function @_take and the 40-column twin), read as a value.

  The take wraps a negative index by the table's height, gathers the rows, and masks with NaN every
  row whose wrapped index falls outside [0, 49999]. When every index already lies in [0, 50000) the
  wrap leaves it alone, the range test holds at every row, and the masked take is the plain gather.
-/
import proofs.«428991_j8186207667012_2_alg».proof.KernelIdeal
import Idealize.ShloMosaic.Lib.ReduceAll
import Idealize.ShloMosaic.Lib.ValueIdx

noncomputable section

namespace Cert.KernelIdeal.Take

open Idealize.ShloMosaic Idealize.ShloMosaic.ValueIdx Cert.KernelIdeal

/-! ## A reduce by "and" over entries that are all 1 -/

/-- A left fold by "and" that meets only 1s returns the value it started from. -/
theorem foldl_andi_of_all_one {ι : Type} (f : ι → BitVec 1) :
    ∀ (l : List ι) (init : BitVec 1), (∀ n ∈ l, f n = 1#1) → l.foldl (fun r n => IntOp.andi r (f n)) init = init
  | [], _, _ => rfl
  | a :: l, init, h => by
    have ha : f a = 1#1 := h a (List.mem_cons_self ..)
    have hr : IntOp.andi init (f a) = init := by rw [ha]; revert init; decide
    rw [List.foldl_cons, hr]
    exact foldl_andi_of_all_one f l init (fun n hn => h n (List.mem_cons_of_mem _ hn))

/-- A reduce by "and" from 1 over an array whose every entry is 1 is 1 at every result index. -/
theorem reduce_andi_of_all_one {s t u : Shape} {axes : List (Fin s.rank)} (x : s.Idx → BitVec 1)
    (init : u.Idx → BitVec 1) (h : s.ReducesTo axes t) (hu : 0 < u.numel) (j : t.Idx)
    (hx : ∀ i, x i = 1#1) (hinit : init (Shape.Idx.first hu) = 1#1) :
    Host.reduce IntOp.andi x init h hu j = 1#1 := by
  rw [Host.reduce_eq_foldl, foldl_andi_of_all_one x _ _ (fun n _ => hx n), hinit]

variable [Facts]
open Facts₀ Facts

/-! ## The kernel's operations -/

/-- The index column: a negative index moved up by the table's height, as one column. -/
def wrapCol (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The row mask: every entry of the row's index column lies in [0, 49999]. -/
def inRange (idx : IVec S800000x1 32) : IVec S800000 1 :=
  Host.reduce IntOp.andi (andi (cmpi .sge idx (broadcastInDim S800000x1 ![] bcast_S_S800000x1 (constantI S_ 32 0#32))) (cmpi .sle idx (broadcastInDim S800000x1 ![0, 1] bcast_S1x1_S800000x1_0_1 (broadcastInDim S1x1 ![1] bcast_S1_S1x1_1 (constantI S1 32 49999#32))))) (constantI S_ 1 1#1) reducesTo_S800000x1_S800000_d1 h_S_

/-- The masked take of 64-column rows. -/
def take64 (L : FVec Ideal S50000x64 .f32) (s : IVec S800000 32) : FVec Ideal S800000x64 .f32 :=
  select (broadcastInDim S800000x64 ![0] bcast_S800000_S800000x64_0 (inRange (wrapCol s))) (Host.gather gather_S50000x64_S800000x1_S800000x64_1_0_n_n_0_1_164 L (wrapCol s)) (broadcastInDim S800000x64 ![] bcast_S_S800000x64 (constant (F := Ideal) S_ .f32 0x7FC00000#32))

/-- The masked take of 40-column rows. -/
def take40 (L : FVec Ideal S50000x40 .f32) (s : IVec S800000 32) : FVec Ideal S800000x40 .f32 :=
  select (broadcastInDim S800000x40 ![0] bcast_S800000_S800000x40_0 (inRange (wrapCol s))) (Host.gather gather_S50000x40_S800000x1_S800000x40_1_0_n_n_0_1_140 L (wrapCol s)) (broadcastInDim S800000x40 ![] bcast_S_S800000x40 (constant (F := Ideal) S_ .f32 0x7FC00000#32))

/-! ## In range, the wrap is the identity and the mask is all ones -/

/-- A non-negative index is not moved by the wrap. -/
theorem wrap_of_nonneg (v : BitVec 32) (hv : 0 ≤ v.toInt) :
    Scalar.select (IntOp.cmpi .slt v 0#32) (IntOp.addi v 50000#32) v = v := by
  have hc : ¬ IntOp.cmpi .slt v 0#32 = 1#1 := by
    rw [IntOp.cmpi_slt]
    have h0 : (0#32 : BitVec 32).toInt = 0 := by decide
    omega
  rw [eq_zero_of_ne_one hc, select_zero]

/-- Every entry of the index column is an entry of the index vector, read signed, when none is negative. -/
theorem wrapCol_bounds (s : IVec S800000 32) (hs : ∀ e : S800000.Idx, 0 ≤ (s e).toInt ∧ (s e).toInt < 50000)
    (i : S800000x1.Idx) : 0 ≤ (wrapCol s i).toInt ∧ (wrapCol s i).toInt < 50000 := by
  unfold wrapCol broadcastInDim
  generalize (fun a : Fin S800000.rank => _ : S800000.Idx) = k
  show 0 ≤ (Scalar.select (IntOp.cmpi .slt (s k) 0#32) (IntOp.addi (s k) 50000#32) (s k)).toInt
    ∧ (Scalar.select (IntOp.cmpi .slt (s k) 0#32) (IntOp.addi (s k) 50000#32) (s k)).toInt < 50000
  rw [wrap_of_nonneg _ (hs k).1]
  exact hs k

/-- The row mask of the wrapped index column is 1 at every row. -/
theorem inRange_wrapCol (s : IVec S800000 32) (hs : ∀ e : S800000.Idx, 0 ≤ (s e).toInt ∧ (s e).toInt < 50000)
    (e : S800000.Idx) : inRange (wrapCol s) e = 1#1 := by
  unfold inRange
  refine reduce_andi_of_all_one _ _ _ _ _ (fun i => ?_) rfl
  obtain ⟨h0, h1⟩ := wrapCol_bounds s hs i
  show IntOp.andi (IntOp.cmpi .sge (wrapCol s i) 0#32) (IntOp.cmpi .sle (wrapCol s i) 49999#32) = 1#1
  rw [IntOp.andi_eq_one, IntOp.cmpi_sge, IntOp.cmpi_sle]
  have e0 : (0#32 : BitVec 32).toInt = 0 := by decide
  have e1 : (49999#32 : BitVec 32).toInt = 49999 := by decide
  omega

/-! ## The masked take is the plain gather -/

theorem take64_eq (L : FVec Ideal S50000x64 .f32) (s : IVec S800000 32) (hs : ∀ e : S800000.Idx, 0 ≤ (s e).toInt ∧ (s e).toInt < 50000) :
    take64 L s = Host.gather gather_S50000x64_S800000x1_S800000x64_1_0_n_n_0_1_164 L (wrapCol s) := by
  funext i
  unfold take64
  rw [select_apply]
  have hm : broadcastInDim S800000x64 ![0] bcast_S800000_S800000x64_0 (inRange (wrapCol s)) i = 1#1 := by
    unfold broadcastInDim
    exact inRange_wrapCol s hs _
  rw [hm, select_one]

theorem take40_eq (L : FVec Ideal S50000x40 .f32) (s : IVec S800000 32) (hs : ∀ e : S800000.Idx, 0 ≤ (s e).toInt ∧ (s e).toInt < 50000) :
    take40 L s = Host.gather gather_S50000x40_S800000x1_S800000x40_1_0_n_n_0_1_140 L (wrapCol s) := by
  funext i
  unfold take40
  rw [select_apply]
  have hm : broadcastInDim S800000x40 ![0] bcast_S800000_S800000x40_0 (inRange (wrapCol s)) i = 1#1 := by
    unfold broadcastInDim
    exact inRange_wrapCol s hs _
  rw [hm, select_one]

end Cert.KernelIdeal.Take

end
-- ==== Proof.KHost.lean ====
/-
  The kernel program's buffers at the boundaries of its ten segments, read as values of the seven arguments.
  A host stretch leaves every buffer it does not write as it was, and so does a launch for every buffer that is not
  one of its windows' arrays; a launch's input arrays also stay. So the source and target index vectors, the weight
  column and the two bias rows made by the first stretch, and the arguments themselves, are found unchanged wherever
  a later segment reads them, and each launch's output array is the launch's function of the arrays it found.
-/
import proofs.«428991_j8186207667012_2_alg».proof.Proof.Gen.KernelIdeal.Frame
import proofs.«428991_j8186207667012_2_alg».proof.Proof.Region0
import proofs.«428991_j8186207667012_2_alg».proof.Proof.Region1
import proofs.«428991_j8186207667012_2_alg».proof.Proof.Region2
import proofs.«428991_j8186207667012_2_alg».proof.Proof.Region3
import proofs.«428991_j8186207667012_2_alg».proof.Proof.TakeValue
import Idealize.ShloMosaic.Lib.StableHlo.Run
import Idealize.ShloMosaic.Lib.Tactic

set_option maxRecDepth 16384

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.Tactic
open Idealize.ShloMosaic.Pipeline (Dat)

variable (m : (ℓ : Loc nD τ sig) → Buf (Elt Ideal) ℓ) (ρ : Dev nD → PrngReg)

/-- Contents carried to a typed reference's buffer type and back are the contents. -/
theorem ofBuf_toBuf {T : BufTy} (x : TRef sig T) (v : T.Contents (Elt Ideal)) : x.ofBuf (x.toBuf v) = v := by
  obtain ⟨r, h, h2, h3⟩ := x; subst h; rfl

/-- A stretch of host operations leaves a buffer none of them writes as it was. -/
macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-! ## The arguments' pieces the first stretch makes -/

/-- The source indices: row 0 of the edge table. -/
abbrev srcOf (a1 : IVec S2x800000 32) : IVec S800000 32 :=
  shapeCast S800000 (extractStridedSlice S1x800000 ![0, 0] a1 slices_S2x800000_S1x800000_0_0) shapeCasts_S1x800000_S800000
/-- The target indices: row 1 of the edge table. -/
abbrev dstOf (a1 : IVec S2x800000 32) : IVec S800000 32 :=
  shapeCast S800000 (extractStridedSlice S1x800000 ![1, 0] a1 slices_S2x800000_S1x800000_1_0) shapeCasts_S1x800000_S800000

abbrev a0 (c : Dev nD) : FVec Ideal S50000x512 .f32 := m ((c : Thread nD τ).loc main_arg0)
abbrev a1 (c : Dev nD) : IVec S2x800000 32 := m ((c : Thread nD τ).loc main_arg1)
abbrev a2 (c : Dev nD) : FVec Ideal S800000 .f32 := m ((c : Thread nD τ).loc main_arg2)
abbrev a3 (c : Dev nD) : FVec Ideal S512x64 .f32 := m ((c : Thread nD τ).loc main_arg3)
abbrev a4 (c : Dev nD) : FVec Ideal S64 .f32 := m ((c : Thread nD τ).loc main_arg4)
abbrev a5 (c : Dev nD) : FVec Ideal S64x40 .f32 := m ((c : Thread nD τ).loc main_arg5)
abbrev a6 (c : Dev nD) : FVec Ideal S40 .f32 := m ((c : Thread nD τ).loc main_arg6)

/-- The weight column, the two bias rows. -/
abbrev wcolOf (c : Dev nD) : FVec Ideal S800000x1 .f32 := shapeCast S800000x1 (a2 m c) shapeCasts_S800000_S800000x1
abbrev b1row (c : Dev nD) : FVec Ideal S1x64 .f32 := shapeCast S1x64 (a4 m c) shapeCasts_S64_S1x64
abbrev b2row (c : Dev nD) : FVec Ideal S1x40 .f32 := shapeCast S1x40 (a6 m c) shapeCasts_S40_S1x40

/-! ## After the first stretch -/

theorem W1_v1 (c : Dev nD) : (W1 m ρ c (Proc.devRef .tc main_v1) : IVec S800000 32) = srcOf (a1 m c) := by
  show StableHlo.after hostOps0 (W0 m ρ c) (Proc.devRef .tc main_v1) = _
  dsimp only [hostOps0]; after_results; rfl
theorem W1_v3 (c : Dev nD) : (W1 m ρ c (Proc.devRef .tc main_v3) : IVec S800000 32) = dstOf (a1 m c) := by
  show StableHlo.after hostOps0 (W0 m ρ c) (Proc.devRef .tc main_v3) = _
  dsimp only [hostOps0]; after_results; rfl
theorem W1_v4 (c : Dev nD) : (W1 m ρ c (Proc.devRef .tc main_v4) : FVec Ideal S800000x1 .f32) = wcolOf m c := by
  show StableHlo.after hostOps0 (W0 m ρ c) (Proc.devRef .tc main_v4) = _
  dsimp only [hostOps0]; after_results; rfl
theorem W1_v5 (c : Dev nD) : (W1 m ρ c (Proc.devRef .tc main_v5) : FVec Ideal S1x64 .f32) = b1row m c := by
  show StableHlo.after hostOps0 (W0 m ρ c) (Proc.devRef .tc main_v5) = _
  dsimp only [hostOps0]; after_results; rfl
theorem W1_arg0 (c : Dev nD) : W1 m ρ c (Proc.devRef .tc main_arg0) = W0 m ρ c (Proc.devRef .tc main_arg0) := by host_keeps hostOps0
theorem W1_arg3 (c : Dev nD) : W1 m ρ c (Proc.devRef .tc main_arg3) = W0 m ρ c (Proc.devRef .tc main_arg3) := by host_keeps hostOps0
theorem W1_arg5 (c : Dev nD) : W1 m ρ c (Proc.devRef .tc main_arg5) = W0 m ρ c (Proc.devRef .tc main_arg5) := by host_keeps hostOps0
theorem W1_arg6 (c : Dev nD) : W1 m ρ c (Proc.devRef .tc main_arg6) = W0 m ρ c (Proc.devRef .tc main_arg6) := by host_keeps hostOps0

/-! ## The first linear layer's output -/

/-- After the first launch its output array is the affine map of the features, the first weights and the first bias row. -/
theorem W2_v6 (c : Dev nD) : (W2 m ρ c (Proc.devRef .tc main_v6) : FVec Ideal S50000x64 .f32)
    = Linear0.affine (a0 m c) (a3 m c) (b1row m c) := by
  refine (W2_arr m ρ c 3).trans ((Linear0.final (V1 m ρ) c).trans ?_)
  have e0 : Linear0.xin (V1 m ρ) c = a0 m c := W1_arg0 m ρ c
  have e1 : Linear0.wts (V1 m ρ) c = a3 m c := W1_arg3 m ρ c
  have e2 : Linear0.bias (V1 m ρ) c = b1row m c := W1_v5 m ρ c
  rw [e0, e1, e2]

/-! ## Through the first launch -/

theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v4 (c : Dev nD) : W2 m ρ c (Proc.devRef .tc main_v4) = W1 m ρ c (Proc.devRef .tc main_v4) := W2_of_ne m ρ c main_v4 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)

/-! ## The first take -/

set_option maxHeartbeats 4000000 in
/-- The second stretch leaves in its result buffer the masked take of the first layer's rows at the source indices. -/
theorem W3_v7 (c : Dev nD) : (W3 m ρ c (Proc.devRef .tc main_v7) : FVec Ideal S800000x64 .f32)
    = Take.take64 (W2 m ρ c (Proc.devRef .tc main_v6)) (W2 m ρ c (Proc.devRef .tc main_v1)) := by
  show StableHlo.after hostOps1 (W2 m ρ c) (Proc.devRef .tc main_v7) = _
  dsimp only [hostOps1]
  after_results_simp
  simp only [ofBuf_toBuf]
  unfold Take.take64 Take.inRange Take.wrapCol
  sl_kernel_rfl
theorem W3_v1 (c : Dev nD) : W3 m ρ c (Proc.devRef .tc main_v1) = W2 m ρ c (Proc.devRef .tc main_v1) := by host_keeps hostOps1
theorem W3_v3 (c : Dev nD) : W3 m ρ c (Proc.devRef .tc main_v3) = W2 m ρ c (Proc.devRef .tc main_v3) := by host_keeps hostOps1
theorem W3_v4 (c : Dev nD) : W3 m ρ c (Proc.devRef .tc main_v4) = W2 m ρ c (Proc.devRef .tc main_v4) := by host_keeps hostOps1
theorem W3_arg5 (c : Dev nD) : W3 m ρ c (Proc.devRef .tc main_arg5) = W2 m ρ c (Proc.devRef .tc main_arg5) := by host_keeps hostOps1
theorem W3_arg6 (c : Dev nD) : W3 m ρ c (Proc.devRef .tc main_arg6) = W2 m ρ c (Proc.devRef .tc main_arg6) := by host_keeps hostOps1

/-! ## The first scaling launch -/

/-- After the second launch its output array is the taken rows, each scaled by its weight. -/
theorem W4_v8 (c : Dev nD) : (W4 m ρ c (Proc.devRef .tc main_v8) : FVec Ideal S800000x64 .f32)
    = Scale1.scaled (W3 m ρ c (Proc.devRef .tc main_v7)) (W3 m ρ c (Proc.devRef .tc main_v4)) :=
  (W4_arr m ρ c 2).trans (Scale1.final (V3 m ρ) c)
theorem W4_v4 (c : Dev nD) : W4 m ρ c (Proc.devRef .tc main_v4) = W3 m ρ c (Proc.devRef .tc main_v4) :=
  (W4_arr m ρ c 1).trans (((dat1 (V3 m ρ) c).arrAt_in 1 rfl _).trans (A_eq1 (V3 m ρ) c 1))
theorem W4_v1 (c : Dev nD) : W4 m ρ c (Proc.devRef .tc main_v1) = W3 m ρ c (Proc.devRef .tc main_v1) := W4_of_ne m ρ c main_v1 (by decide)
theorem W4_v3 (c : Dev nD) : W4 m ρ c (Proc.devRef .tc main_v3) = W3 m ρ c (Proc.devRef .tc main_v3) := W4_of_ne m ρ c main_v3 (by decide)
theorem W4_arg5 (c : Dev nD) : W4 m ρ c (Proc.devRef .tc main_arg5) = W3 m ρ c (Proc.devRef .tc main_arg5) := W4_of_ne m ρ c main_arg5 (by decide)
theorem W4_arg6 (c : Dev nD) : W4 m ρ c (Proc.devRef .tc main_arg6) = W3 m ρ c (Proc.devRef .tc main_arg6) := W4_of_ne m ρ c main_arg6 (by decide)

/-! ## The first scatter-add and the second bias row -/

/-- The scatter-add of rows of 64 into zeros at the target indices. -/
abbrev sum64 (d : IVec S800000 32) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d) u
/-- The scatter-add of rows of 40 into zeros at the target indices. -/
abbrev sum40 (d : IVec S800000 32) (u : FVec Ideal S800000x40 .f32) : FVec Ideal S50000x40 .f32 :=
  Host.scatterAdd scatter_S50000x40_S800000x1_S800000x40_1_0_0_1
    (broadcastInDim S50000x40 ![] bcast_S_S50000x40 (constant (F := Ideal) S_ .f32 0x00000000#32))
    (broadcastInDim S800000x1 ![0] bcast_S800000_S800000x1_0 d) u

theorem W5_v11 (c : Dev nD) : (W5 m ρ c (Proc.devRef .tc main_v11) : FVec Ideal S50000x64 .f32)
    = sum64 (W4 m ρ c (Proc.devRef .tc main_v3)) (W4 m ρ c (Proc.devRef .tc main_v8)) := by
  show StableHlo.after hostOps2 (W4 m ρ c) (Proc.devRef .tc main_v11) = _
  dsimp only [hostOps2]; after_results
theorem W5_v12 (c : Dev nD) : (W5 m ρ c (Proc.devRef .tc main_v12) : FVec Ideal S1x40 .f32)
    = shapeCast S1x40 (W4 m ρ c (Proc.devRef .tc main_arg6) : FVec Ideal S40 .f32) shapeCasts_S40_S1x40 := by
  show StableHlo.after hostOps2 (W4 m ρ c) (Proc.devRef .tc main_v12) = _
  dsimp only [hostOps2]; after_results; rfl
theorem W5_arg5 (c : Dev nD) : W5 m ρ c (Proc.devRef .tc main_arg5) = W4 m ρ c (Proc.devRef .tc main_arg5) := by host_keeps hostOps2
theorem W5_v1 (c : Dev nD) : W5 m ρ c (Proc.devRef .tc main_v1) = W4 m ρ c (Proc.devRef .tc main_v1) := by host_keeps hostOps2
theorem W5_v3 (c : Dev nD) : W5 m ρ c (Proc.devRef .tc main_v3) = W4 m ρ c (Proc.devRef .tc main_v3) := by host_keeps hostOps2
theorem W5_v4 (c : Dev nD) : W5 m ρ c (Proc.devRef .tc main_v4) = W4 m ρ c (Proc.devRef .tc main_v4) := by host_keeps hostOps2

/-! ## The second linear layer -/

theorem W6_v13 (c : Dev nD) : (W6 m ρ c (Proc.devRef .tc main_v13) : FVec Ideal S50000x40 .f32)
    = Linear2.affine (W5 m ρ c (Proc.devRef .tc main_v11)) (W5 m ρ c (Proc.devRef .tc main_arg5)) (W5 m ρ c (Proc.devRef .tc main_v12)) :=
  (W6_arr m ρ c 3).trans (Linear2.final (V5 m ρ) c)
theorem W6_v1 (c : Dev nD) : W6 m ρ c (Proc.devRef .tc main_v1) = W5 m ρ c (Proc.devRef .tc main_v1) := W6_of_ne m ρ c main_v1 (by decide)
theorem W6_v3 (c : Dev nD) : W6 m ρ c (Proc.devRef .tc main_v3) = W5 m ρ c (Proc.devRef .tc main_v3) := W6_of_ne m ρ c main_v3 (by decide)
theorem W6_v4 (c : Dev nD) : W6 m ρ c (Proc.devRef .tc main_v4) = W5 m ρ c (Proc.devRef .tc main_v4) := W6_of_ne m ρ c main_v4 (by decide)

/-! ## The second take, scaling and scatter-add -/

set_option maxHeartbeats 4000000 in
theorem W7_v14 (c : Dev nD) : (W7 m ρ c (Proc.devRef .tc main_v14) : FVec Ideal S800000x40 .f32)
    = Take.take40 (W6 m ρ c (Proc.devRef .tc main_v13)) (W6 m ρ c (Proc.devRef .tc main_v1)) := by
  show StableHlo.after hostOps3 (W6 m ρ c) (Proc.devRef .tc main_v14) = _
  dsimp only [hostOps3]
  after_results_simp
  simp only [ofBuf_toBuf]
  unfold Take.take40 Take.inRange Take.wrapCol
  sl_kernel_rfl
theorem W7_v3 (c : Dev nD) : W7 m ρ c (Proc.devRef .tc main_v3) = W6 m ρ c (Proc.devRef .tc main_v3) := by host_keeps hostOps3
theorem W7_v4 (c : Dev nD) : W7 m ρ c (Proc.devRef .tc main_v4) = W6 m ρ c (Proc.devRef .tc main_v4) := by host_keeps hostOps3

theorem W8_v15 (c : Dev nD) : (W8 m ρ c (Proc.devRef .tc main_v15) : FVec Ideal S800000x40 .f32)
    = Scale3.scaled (W7 m ρ c (Proc.devRef .tc main_v14)) (W7 m ρ c (Proc.devRef .tc main_v4)) :=
  (W8_arr m ρ c 2).trans (Scale3.final (V7 m ρ) c)
theorem W8_v3 (c : Dev nD) : W8 m ρ c (Proc.devRef .tc main_v3) = W7 m ρ c (Proc.devRef .tc main_v3) := W8_of_ne m ρ c main_v3 (by decide)

theorem W9_v18 (c : Dev nD) : (W9 m ρ c (Proc.devRef .tc main_v18) : FVec Ideal S50000x40 .f32)
    = sum40 (W8 m ρ c (Proc.devRef .tc main_v3)) (W8 m ρ c (Proc.devRef .tc main_v15)) := by
  show StableHlo.after hostOps4 (W8 m ρ c) (Proc.devRef .tc main_v18) = _
  dsimp only [hostOps4]; after_results

end Cert.KernelIdeal.HostV

end
-- ==== Proof.Spec.lean ====
/-
  The row-wise log-softmax of a matrix over the extended reals, as both programs compute it: subtract the row's
  maximum, then subtract the logarithm of the row's sum of exponentials of the shifted entries. The maximum is
  folded from the value the word 0xFF800000 denotes (minus infinity), as both programs' reductions are.
-/
import Idealize.ShloMosaic.PureOps.Ideal
import Idealize.ShloMosaic.Lib.ValueIdx

noncomputable section

namespace Cert.Spec

open Idealize.ShloMosaic Idealize.ShloMosaic.ValueIdx
open scoped BigOperators

/-- The value both reductions start the maximum from. -/
abbrev negInf : EReal := Ideal.ofBits .f32 0xFF800000#32

/-- The maximum of row `r`. -/
def rowMax {n k : Nat} (x : (⟨2, ![n, k]⟩ : Shape).Idx → EReal) (r : Fin n) : EReal :=
  (Finset.univ : Finset (Fin k)).fold max negInf (fun j => x (ix2 r j))

/-- The sum over row `r` of the exponentials of the entries less the row's maximum. -/
def rowExpSum {n k : Nat} (x : (⟨2, ![n, k]⟩ : Shape).Idx → EReal) (r : Fin n) : EReal :=
  ∑ j : Fin k, Ideal.exp (x (ix2 r j) - rowMax x r)

/-- The log-softmax along the rows. -/
def logSoftmax {n k : Nat} (x : (⟨2, ![n, k]⟩ : Shape).Idx → EReal) : (⟨2, ![n, k]⟩ : Shape).Idx → EReal :=
  fun i => (x i - rowMax x ⟨(i 0).val, (i 0).isLt⟩) - Ideal.log (rowExpSum x ⟨(i 0).val, (i 0).isLt⟩)

/-- The log-softmax at an entry whose coordinates are known. -/
theorem logSoftmax_apply {n k : Nat} (x : (⟨2, ![n, k]⟩ : Shape).Idx → EReal) (r : Fin n) (j : Fin k) :
    logSoftmax x (ix2 r j) = (x (ix2 r j) - rowMax x r) - Ideal.log (rowExpSum x r) := rfl

end Cert.Spec

end
-- ==== Proof.Region4.lean ====
/-
  The log-softmax launch: 10 grid points, point t taking rows 5000·t … 5000·t + 4999 of a matrix [50000, 40] and
  writing back the same rows of its row-wise log-softmax: each entry less its row's maximum, less the logarithm of the
  row's sum of exponentials of the shifted entries. A block holds all 40 columns of its rows, so a row's maximum and
  sum are the same read in the block or in the array. Read as a whole: the output array is the log-softmax of the input.
-/
import proofs.«428991_j8186207667012_2_alg».proof.Proof.Gen.KernelIdeal.Frame
import proofs.«428991_j8186207667012_2_alg».proof.Proof.Spec
import Idealize.ShloMosaic.Lib.Pipeline.Value
import Idealize.ShloMosaic.Lib.ValueIdx
import Idealize.ShloMosaic.PureOps.Ideal.Laws

noncomputable section

namespace Cert.KernelIdeal.LogSoftmax4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The input matrix as the launch finds it. -/
abbrev logits (c : Dev nD) : S50000x40.Idx → EReal := V c (Pipeline.arrRef spec4 0)

/-- A column broadcast along the rows reads, at (r, j), the column's entry in row r. -/
theorem bcast_col (v : FVec Ideal S5000x1 .f32) (r : Fin 5000) (j : Fin 40) :
    broadcastTo S5000x40 v broadcasts_S5000x1_S5000x40 (ix2 r j) = v (ix2 r (0 : Fin 1)) :=
  broadcastTo_apply _ broadcasts_S5000x1_S5000x40 (ix2 r j) (ix2 r (0 : Fin 1)) (fun a => match a with
    | ⟨0, _⟩ => by show r.val = if (5000 : Nat) = 1 then 0 else r.val; rw [if_neg (by decide)]
    | ⟨1, _⟩ => by show 0 = if (1 : Nat) = 1 then 0 else j.val; rw [if_pos rfl])

/-- A vector of 5000 entries seen as a column reads, in row r, its entry r. -/
theorem cast_col (v : FVec Ideal S5000 .f32) (r : Fin 5000) :
    shapeCast S5000x1 v shapeCasts_S5000_S5000x1 (ix2 r (0 : Fin 1)) = v (ix1 r) :=
  shapeCast_apply v shapeCasts_S5000_S5000x1 (ix2 r (0 : Fin 1)) (ix1 r) (by
    rw [Shape.rowMajor_val_one, Shape.rowMajor_val_two]
    show r.val = r.val * 1 + 0
    omega)

/-- The index the reduction over the columns inserts column k into at row r is (r, k). -/
theorem lift_eq (r : Fin 5000) (k : Fin 40) :
    reduces_S5000x40_S5000.lift (ix1 r) k = ix2 r k := by
  funext a; apply Fin.ext
  match a with
  | ⟨0, _⟩ => rfl
  | ⟨1, _⟩ => rfl

/-- The reduction by maximum over the columns is the row's maximum. -/
theorem red_max (x : FVec Ideal S5000x40 .f32) (r : Fin 5000) :
    multiReduction .maximumf [1] S5000 x 0xFF800000#32 reduces_S5000x40_S5000 (.inl rfl) rfl (ix1 r)
      = Cert.Spec.rowMax x r := by
  refine (Ideal.multiReduction_maximumf_single x _ reduces_S5000x40_S5000 _ _ (ix1 r)).trans ?_
  unfold Cert.Spec.rowMax
  have hf : (x ∘ reduces_S5000x40_S5000.lift (ix1 r)) = fun k : Fin 40 => x (ix2 r k) :=
    funext fun k => congrArg x (lift_eq r k)
  exact congrArg (fun f => Finset.fold max (Ideal.ofBits .f32 0xFF800000#32) f (Finset.univ : Finset (Fin 40))) hf

/-- The reduction by sum over the columns is the row's sum. -/
theorem red_add (x : FVec Ideal S5000x40 .f32) (r : Fin 5000) :
    multiReduction .add [1] S5000 x 0x00000000#32 reduces_S5000x40_S5000 (.inl rfl) rfl (ix1 r)
      = ∑ k : Fin 40, x (ix2 r k) := by
  refine (Ideal.multiReduction_add_single x _ reduces_S5000x40_S5000 _ _ (ix1 r)).trans ?_
  show ∑ k : Fin 40, _ = _
  refine Finset.sum_congr rfl fun k _ => ?_
  exact congrArg x (lift_eq r k)

/-- The body's value at an entry of the block: the block's log-softmax there. -/
theorem pay_apply (x0 : Vec Ideal S5000x40 .f32) (r : Fin 5000) (j : Fin 40) :
    k4_pay1 x0 (ix2 r j) = Cert.Spec.logSoftmax x0 (ix2 r j) := by
  rw [Cert.Spec.logSoftmax_apply]
  unfold k4_pay1
  simp only [shapeCast_self]
  rw [subf_apply, subf_apply, bcast_col, bcast_col, cast_col, red_max]
  refine congrArg (fun z => x0 (ix2 r j) - Cert.Spec.rowMax x0 r - z) ?_
  show Ideal.log _ = Ideal.log _
  refine congrArg Ideal.log ?_
  rw [cast_col, red_add]
  unfold Cert.Spec.rowExpSum
  refine Finset.sum_congr rfl fun k _ => ?_
  show Ideal.exp _ = Ideal.exp _
  refine congrArg Ideal.exp ?_
  rw [subf_apply, bcast_col, cast_col, red_max]

/-- Two matrices that agree along a row have the same maximum there … -/
theorem rowMax_congr {n m k : Nat} (x : (⟨2, ![n, k]⟩ : Shape).Idx → EReal) (y : (⟨2, ![m, k]⟩ : Shape).Idx → EReal)
    (r : Fin n) (r' : Fin m) (h : ∀ j : Fin k, x (ix2 r j) = y (ix2 r' j)) :
    Cert.Spec.rowMax x r = Cert.Spec.rowMax y r' := by
  unfold Cert.Spec.rowMax
  exact congrArg (fun f => Finset.fold max Cert.Spec.negInf f (Finset.univ : Finset (Fin k))) (funext h)

/-- … the same sum of shifted exponentials … -/
theorem rowExpSum_congr {n m k : Nat} (x : (⟨2, ![n, k]⟩ : Shape).Idx → EReal) (y : (⟨2, ![m, k]⟩ : Shape).Idx → EReal)
    (r : Fin n) (r' : Fin m) (h : ∀ j : Fin k, x (ix2 r j) = y (ix2 r' j)) :
    Cert.Spec.rowExpSum x r = Cert.Spec.rowExpSum y r' := by
  unfold Cert.Spec.rowExpSum
  rw [rowMax_congr x y r r' h]
  exact Finset.sum_congr rfl fun j _ => by rw [h j]

/-- … and the same log-softmax along it. -/
theorem logSoftmax_congr {n m k : Nat} (x : (⟨2, ![n, k]⟩ : Shape).Idx → EReal) (y : (⟨2, ![m, k]⟩ : Shape).Idx → EReal)
    (r : Fin n) (r' : Fin m) (h : ∀ j : Fin k, x (ix2 r j) = y (ix2 r' j)) (j : Fin k) :
    Cert.Spec.logSoftmax x (ix2 r j) = Cert.Spec.logSoftmax y (ix2 r' j) := by
  rw [Cert.Spec.logSoftmax_apply, Cert.Spec.logSoftmax_apply, rowMax_congr x y r r' h, rowExpSum_congr x y r r' h, h j]

/-- The two windows move together: block t of each is rows 5000·t onward, in column block 0. -/
theorem idx_facts : ∀ t : Fin cfg4.N, win4_0.index t (0 : Fin 2) = win4_1.index t (0 : Fin 2)
    ∧ win4_0.index t (1 : Fin 2) = 0
    ∧ win4_1.index t (1 : Fin 2) = 0
    ∧ win4_1.index t (0 : Fin 2) ≤ 9 :=
  (by decide +kernel : ∀ t : Fin grid4.N, _)

/-- Every block of rows is some point's. -/
theorem idx_onto : ∀ q : Fin 10, ∃ t : Fin cfg4.N, win4_1.index t = ![q.val, 0] :=
  (by decide +kernel : ∀ q : Fin 10, ∃ t : Fin grid4.N, win4_1.index t = ![q.val, 0])

/-- What point `t` writes back is block `t` of the input's log-softmax: row p of the block is row 5000·t + p of the
    array, all 40 columns of it, so the row's maximum and sum are the array's. -/
theorem flushed_eq (c : Dev nD) (t : Fin cfg4.N) :
    (dat4 V c).flushed 1 t = ((cfg4.win 1).blk t).view.read (Elt Ideal)
      (Cert.Spec.logSoftmax (logits V c)) := by
  show (cfg4.win 1).cut (grid4.coords t) ((dat4 V c).after 1 t) = _
  rw [after4_1]
  unfold out4_1
  rw [View.canon_unit_zero origin]
  simp only [View.ld_unit_zero (S := S5000x40) origin]
  obtain ⟨e0, e1, e2, e3⟩ := idx_facts t
  funext j
  obtain ⟨p, q, rfl⟩ : ∃ (p : Fin 5000) (q : Fin 40), j = ix2 p q := ⟨j 0, j 1, eq_ix2 j⟩
  refine (pay_apply (iblk4 V c 0 t) p q).trans ?_
  have hp : p.val < 5000 := p.isLt
  have hR : win4_1.index t (0 : Fin 2) * 5000 + p.val < 50000 := by omega
  have h0 : ∀ k : Fin 40, (((cfg4.win 0).blk t).view.emb (ix2 p k) : S50000x40.Idx)
      = ix2 (⟨win4_1.index t (0 : Fin 2) * 5000 + p.val, hR⟩ : Fin 50000) k := by
    intro k; funext a; apply Fin.ext
    match a with
    | ⟨0, _⟩ => show win4_0.index t (0 : Fin 2) * 5000 + 1 * p.val = win4_1.index t (0 : Fin 2) * 5000 + p.val; omega
    | ⟨1, _⟩ => show win4_0.index t (1 : Fin 2) * 40 + 1 * k.val = k.val; omega
  have h1 : (((cfg4.win 1).blk t).view.emb (ix2 p q) : S50000x40.Idx)
      = ix2 (⟨win4_1.index t (0 : Fin 2) * 5000 + p.val, hR⟩ : Fin 50000) q := by
    funext a; apply Fin.ext
    match a with
    | ⟨0, _⟩ => show win4_1.index t (0 : Fin 2) * 5000 + 1 * p.val = win4_1.index t (0 : Fin 2) * 5000 + p.val; omega
    | ⟨1, _⟩ => show win4_1.index t (1 : Fin 2) * 40 + 1 * q.val = q.val; omega
  show Cert.Spec.logSoftmax (iblk4 V c 0 t) (ix2 p q)
    = Cert.Spec.logSoftmax (logits V c) (((cfg4.win 1).blk t).view.emb (ix2 p q))
  rw [h1]
  refine logSoftmax_congr (iblk4 V c 0 t) (logits V c) p _ (fun k => ?_) q
  show logits V c (((cfg4.win 0).blk t).view.emb (ix2 p k)) = _
  rw [h0 k]

/-- An entry is in point `t`'s block iff each coordinate is in the block's range. -/
theorem mem_blk (t : Fin cfg4.N) (i : S50000x40.Idx) :
    i ∈ ((cfg4.win 1).blk t).view.set ↔ ∀ a : Fin 2, win4_1.index t a * S5000x40.size a ≤ (i a).val ∧ (i a).val < win4_1.index t a * S5000x40.size a + S5000x40.size a := by
  show i ∈ ((View.whole main_v19).slice (win4_1.rect t)).set ↔ _
  rw [View.set_slice_whole, Rect.mem_set_unit]
  exact Iff.rfl

/-- The blocks cover the array: row r lies in the block of point r / 5000. -/
theorem cover (i : S50000x40.Idx) : ∃ t : Fin cfg4.N, (cfg4.win 1).flush t = true ∧ i ∈ ((cfg4.win 1).blk t).view.set := by
  have hi0 : (i 0).val < 50000 := (i 0).isLt
  have hi1 : (i 1).val < 40 := (i 1).isLt
  obtain ⟨t, ht⟩ := idx_onto ⟨(i 0).val / 5000, by omega⟩
  have q0 : win4_1.index t (0 : Fin 2) = (i 0).val / 5000 := congrFun ht 0
  have q1 : win4_1.index t (1 : Fin 2) = 0 := congrFun ht 1
  refine ⟨t, flush4_1 t, ?_⟩
  rw [mem_blk]
  intro a
  match a with
  | ⟨0, _⟩ => show win4_1.index t (0 : Fin 2) * 5000 ≤ (i 0).val ∧ (i 0).val < win4_1.index t (0 : Fin 2) * 5000 + 5000; omega
  | ⟨1, _⟩ => show win4_1.index t (1 : Fin 2) * 40 ≤ (i 1).val ∧ (i 1).val < win4_1.index t (1 : Fin 2) * 40 + 40; omega

/-- The output array after the launch: the input's row-wise log-softmax. -/
theorem final (c : Dev nD) : (dat4 V c).arrAt 1 cfg4.N = Cert.Spec.logSoftmax (logits V c) :=
  (dat4 V c).arrAt_eq_of_cover 1 _ (fun t _ => flushed_eq V c t) cover

end Cert.KernelIdeal.LogSoftmax4

end
-- ==== Proof.KValue.lean ====
/-
  The kernel program's result as one function of its seven arguments: two rounds of (affine map, take of rows at
  the source indices, scaling of each row by its weight, scatter-add of the rows at the target indices), the second
  affine map clipping its input at zero first, then the row-wise log-softmax. Each stage is what one segment of
  @main leaves in its result buffer; the buffers a stage reads are found as the earlier stages left them.
-/
import proofs.«428991_j8186207667012_2_alg».proof.Proof.KHost
import proofs.«428991_j8186207667012_2_alg».proof.Proof.KRun
import proofs.«428991_j8186207667012_2_alg».proof.Proof.Region4

set_option maxRecDepth 16384

noncomputable section

namespace Cert.KernelIdeal.KValue

open Cert.KernelIdeal Cert.KernelIdeal.Gen Cert.KernelIdeal.HostV Idealize.ShloMosaic Idealize.ShloMosaic.TcCoe Idealize.SL.Sem

variable (m : (ℓ : Loc nD τ sig) → Buf (Elt Ideal) ℓ) (ρ : Dev nD → PrngReg)

/-! ## The stages -/

abbrev kL1 (c : Dev nD) : FVec Ideal S50000x64 .f32 := Linear0.affine (a0 m c) (a3 m c) (b1row m c)
abbrev kT1 (c : Dev nD) : FVec Ideal S800000x64 .f32 := Take.take64 (kL1 m c) (srcOf (a1 m c))
abbrev kS1 (c : Dev nD) : FVec Ideal S800000x64 .f32 := Scale1.scaled (kT1 m c) (wcolOf m c)
abbrev kA1 (c : Dev nD) : FVec Ideal S50000x64 .f32 := sum64 (dstOf (a1 m c)) (kS1 m c)
abbrev kL2 (c : Dev nD) : FVec Ideal S50000x40 .f32 := Linear2.affine (kA1 m c) (a5 m c) (b2row m c)
abbrev kT2 (c : Dev nD) : FVec Ideal S800000x40 .f32 := Take.take40 (kL2 m c) (srcOf (a1 m c))
abbrev kS2 (c : Dev nD) : FVec Ideal S800000x40 .f32 := Scale3.scaled (kT2 m c) (wcolOf m c)
abbrev kA2 (c : Dev nD) : FVec Ideal S50000x40 .f32 := sum40 (dstOf (a1 m c)) (kS2 m c)

/-! ## Each buffer where it is read -/

theorem src_at2 (c : Dev nD) : (W2 m ρ c (Proc.devRef .tc main_v1) : IVec S800000 32) = srcOf (a1 m c) :=
  (W2_v1 m ρ c).trans (W1_v1 m ρ c)
theorem src_at6 (c : Dev nD) : (W6 m ρ c (Proc.devRef .tc main_v1) : IVec S800000 32) = srcOf (a1 m c) :=
  (W6_v1 m ρ c).trans ((W5_v1 m ρ c).trans ((W4_v1 m ρ c).trans ((W3_v1 m ρ c).trans (src_at2 m ρ c))))
theorem dst_at4 (c : Dev nD) : (W4 m ρ c (Proc.devRef .tc main_v3) : IVec S800000 32) = dstOf (a1 m c) :=
  (W4_v3 m ρ c).trans ((W3_v3 m ρ c).trans ((W2_v3 m ρ c).trans (W1_v3 m ρ c)))
theorem dst_at8 (c : Dev nD) : (W8 m ρ c (Proc.devRef .tc main_v3) : IVec S800000 32) = dstOf (a1 m c) :=
  (W8_v3 m ρ c).trans ((W7_v3 m ρ c).trans ((W6_v3 m ρ c).trans ((W5_v3 m ρ c).trans (dst_at4 m ρ c))))
theorem wcol_at3 (c : Dev nD) : (W3 m ρ c (Proc.devRef .tc main_v4) : FVec Ideal S800000x1 .f32) = wcolOf m c :=
  (W3_v4 m ρ c).trans ((W2_v4 m ρ c).trans (W1_v4 m ρ c))
theorem wcol_at7 (c : Dev nD) : (W7 m ρ c (Proc.devRef .tc main_v4) : FVec Ideal S800000x1 .f32) = wcolOf m c :=
  (W7_v4 m ρ c).trans ((W6_v4 m ρ c).trans ((W5_v4 m ρ c).trans ((W4_v4 m ρ c).trans (wcol_at3 m ρ c))))
theorem w2_at5 (c : Dev nD) : (W5 m ρ c (Proc.devRef .tc main_arg5) : FVec Ideal S64x40 .f32) = a5 m c :=
  (W5_arg5 m ρ c).trans ((W4_arg5 m ρ c).trans ((W3_arg5 m ρ c).trans ((W2_arg5 m ρ c).trans (W1_arg5 m ρ c))))
theorem b2_at4 (c : Dev nD) : (W4 m ρ c (Proc.devRef .tc main_arg6) : FVec Ideal S40 .f32) = a6 m c :=
  (W4_arg6 m ρ c).trans ((W3_arg6 m ρ c).trans ((W2_arg6 m ρ c).trans (W1_arg6 m ρ c)))

/-! ## The stages, boundary by boundary -/

theorem at2 (c : Dev nD) : (W2 m ρ c (Proc.devRef .tc main_v6) : FVec Ideal S50000x64 .f32) = kL1 m c := W2_v6 m ρ c
theorem at3 (c : Dev nD) : (W3 m ρ c (Proc.devRef .tc main_v7) : FVec Ideal S800000x64 .f32) = kT1 m c := by
  rw [W3_v7, at2, src_at2]
theorem at4 (c : Dev nD) : (W4 m ρ c (Proc.devRef .tc main_v8) : FVec Ideal S800000x64 .f32) = kS1 m c := by
  rw [W4_v8, at3, wcol_at3]
theorem at5 (c : Dev nD) : (W5 m ρ c (Proc.devRef .tc main_v11) : FVec Ideal S50000x64 .f32) = kA1 m c := by
  rw [W5_v11, at4, dst_at4]
theorem at5b (c : Dev nD) : (W5 m ρ c (Proc.devRef .tc main_v12) : FVec Ideal S1x40 .f32) = b2row m c := by
  rw [W5_v12, b2_at4]
theorem at6 (c : Dev nD) : (W6 m ρ c (Proc.devRef .tc main_v13) : FVec Ideal S50000x40 .f32) = kL2 m c := by
  rw [W6_v13, at5, w2_at5, at5b]
theorem at7 (c : Dev nD) : (W7 m ρ c (Proc.devRef .tc main_v14) : FVec Ideal S800000x40 .f32) = kT2 m c := by
  rw [W7_v14, at6, src_at6]
theorem at8 (c : Dev nD) : (W8 m ρ c (Proc.devRef .tc main_v15) : FVec Ideal S800000x40 .f32) = kS2 m c := by
  rw [W8_v15, at7, wcol_at7]
theorem at9 (c : Dev nD) : (W9 m ρ c (Proc.devRef .tc main_v18) : FVec Ideal S50000x40 .f32) = kA2 m c := by
  rw [W9_v18, at8, dst_at8]

/-- The result buffer after the last launch: the log-softmax of the second aggregation. -/
theorem at10 (c : Dev nD) : (W10 m ρ c (Proc.devRef .tc main_v19) : FVec Ideal S50000x40 .f32) = Cert.Spec.logSoftmax (kA2 m c) := by
  refine (W10_arr m ρ c 1).trans ((LogSoftmax4.final (V9 m ρ) c).trans ?_)
  have e : LogSoftmax4.logits (V9 m ρ) c = kA2 m c := at9 m ρ c
  rw [e]

/-- Every weakly fair execution of the kernel program terminates with its result at that function of the arguments,
    the arguments unchanged. -/
theorem run : θ_run defs (onTc (τ := τ) (main (F := Ideal))) ⟨m, fun _ => 0, ρ⟩ (fun r => ∀ c : Dev nD,
      r.2.mem ((c.tc : Thread nD τ).loc main_v19) = Cert.Spec.logSoftmax (kA2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (at10 m ρ c), (h c).2⟩) (RunV.run_result m ρ)

end Cert.KernelIdeal.KValue

end
-- ==== Proof.StageEq.lean ====
/-
  The kernel's stages and the reference's stages are the same functions of the arguments.

  Each launch of the kernel was read as a whole-array map: an affine map (rows times a weight matrix plus a
  bias row), a row scaling (row e times the weight of row e), and the wrapped index column of the row take.
  The reference spells the same values with a contraction, two broadcasts of the bias vector, a broadcast of
  the weight vector along the columns, and the same wrap. Entry by entry the two agree: the contraction read
  at (r, j) is the sum over k of the products, a vector reshaped to one row or one column and a vector
  broadcast along the other axis read the same entry, and multiplication of extended reals commutes.
-/
import proofs.«428991_j8186207667012_2_alg».proof.Proof.Region0
import proofs.«428991_j8186207667012_2_alg».proof.Proof.Region1
import proofs.«428991_j8186207667012_2_alg».proof.Proof.Region2
import proofs.«428991_j8186207667012_2_alg».proof.Proof.Region3
import proofs.«428991_j8186207667012_2_alg».proof.Proof.TakeValue
import proofs.«428991_j8186207667012_2_alg».proof.Proof.RefRead
import proofs.«428991_j8186207667012_2_alg».proof.Proof.LibContract
import Idealize.ShloMosaic.Lib.Pipeline.Value
import Idealize.ShloMosaic.Lib.ValueIdx

noncomputable section

namespace Cert.StageEq

open Idealize.ShloMosaic Idealize.ShloMosaic.ValueIdx Cert.ReferenceIdeal.ReadP
open scoped BigOperators

/-! ## A vector as one row, and as one column, read at an entry -/

/-- A vector reshaped to one row, read at column q, is the vector's entry q. -/
theorem row_apply {n : Nat} (x : (⟨1, ![n]⟩ : Shape).Idx → EReal) (h : (⟨1, ![n]⟩ : Shape).ShapeCasts ⟨2, ![1, n]⟩)
    (q : Fin n) (k : (⟨1, ![n]⟩ : Shape).Idx) (hk : (k 0).val = q.val) :
    shapeCast ⟨2, ![1, n]⟩ x h (ix2 (0 : Fin 1) q) = x k :=
  shapeCast_apply x h (ix2 (0 : Fin 1) q) k (by
    rw [Shape.rowMajor_val_one, Shape.rowMajor_val_two]
    show (k 0).val = 0 * n + q.val
    omega)

/-- A vector reshaped to one column, read at row e, is the vector's entry e. -/
theorem col_apply {n : Nat} (x : (⟨1, ![n]⟩ : Shape).Idx → EReal) (h : (⟨1, ![n]⟩ : Shape).ShapeCasts ⟨2, ![n, 1]⟩)
    (j : (⟨2, ![n, 1]⟩ : Shape).Idx) (k : (⟨1, ![n]⟩ : Shape).Idx) (hk : (k 0).val = (j 0).val) :
    shapeCast ⟨2, ![n, 1]⟩ x h j = x k :=
  shapeCast_apply x h j k (by
    rw [Shape.rowMajor_val_one, Shape.rowMajor_val_two]
    have h1 : (j 1).val < 1 := (j 1).isLt
    show (k 0).val = (j 0).val * 1 + (j 1).val
    omega)

/-! ## The two affine maps -/

theorem affine1_eq (x0 : FVec Ideal Cert.KernelIdeal.S50000x512 .f32) (x3 : FVec Ideal Cert.KernelIdeal.S512x64 .f32) (x4 : FVec Ideal Cert.KernelIdeal.S64 .f32) :
    Cert.KernelIdeal.Linear0.affine x0 x3 (shapeCast Cert.KernelIdeal.S1x64 x4 Cert.KernelIdeal.Gen.shapeCasts_S64_S1x64) = val_main_v7 (F := Ideal) x0 x3 x4 := by
  funext i
  obtain ⟨r, q, rfl⟩ : ∃ (r : Fin 50000) (q : Fin 64), i = ix2 r q := ⟨i 0, i 1, eq_ix2 i⟩
  refine (Cert.KernelIdeal.Linear0.affine_apply _ _ _ _ r q rfl rfl).trans ?_
  unfold val_main_v7
  rw [addf_apply]
  congr 1
  · unfold val_main_v4
    exact (Cert.LibContract.dotGeneral_plain Cert.ReferenceIdeal.dot_S50000x512_S512x64_S50000x64_1_0_0_1_n_n rfl rfl rfl rfl rfl rfl none x0 x3 r q).symm
  · rw [val_main_v6_apply, val_main_v5_apply]
    exact row_apply x4 _ q _ rfl

theorem affine2_eq (y : FVec Ideal Cert.KernelIdeal.S50000x64 .f32) (x5 : FVec Ideal Cert.KernelIdeal.S64x40 .f32) (x6 : FVec Ideal Cert.KernelIdeal.S40 .f32) :
    Cert.KernelIdeal.Linear2.affine y x5 (shapeCast Cert.KernelIdeal.S1x40 x6 Cert.KernelIdeal.Gen.shapeCasts_S40_S1x40)
      = addf (Host.dotGeneral Cert.ReferenceIdeal.dot_S50000x64_S64x40_S50000x40_1_0_0_1_n_n none (maximumf y (val_main_call0_v0 (F := Ideal))) x5) (val_main_v24 (F := Ideal) x6) := by
  funext i
  obtain ⟨r, q, rfl⟩ : ∃ (r : Fin 50000) (q : Fin 40), i = ix2 r q := ⟨i 0, i 1, eq_ix2 i⟩
  refine (Cert.KernelIdeal.Linear2.affine_apply _ _ _ _ r q rfl rfl).trans ?_
  rw [addf_apply]
  congr 1
  · rw [Cert.LibContract.dotGeneral_plain Cert.ReferenceIdeal.dot_S50000x64_S64x40_S50000x40_1_0_0_1_n_n rfl rfl rfl rfl rfl rfl none _ x5 r q]
    rfl
  · rw [val_main_v24_apply, val_main_v23_apply]
    exact row_apply x6 _ q _ rfl

/-! ## The two row scalings -/

theorem scaled1_eq (g : FVec Ideal Cert.KernelIdeal.S800000x64 .f32) (x2 : FVec Ideal Cert.KernelIdeal.S800000 .f32) :
    Cert.KernelIdeal.Scale1.scaled g (shapeCast Cert.KernelIdeal.S800000x1 x2 Cert.KernelIdeal.Gen.shapeCasts_S800000_S800000x1) = mulf (val_main_v16 (F := Ideal) x2) g := by
  funext i
  rw [mulf_apply, val_main_v16_apply, val_main_v8_apply]
  show g i * shapeCast Cert.KernelIdeal.S800000x1 x2 Cert.KernelIdeal.Gen.shapeCasts_S800000_S800000x1 (Cert.KernelIdeal.Scale1.rowOf i) = _
  rw [mul_comm]
  congr 1
  exact col_apply x2 _ _ _ rfl

theorem scaled3_eq (g : FVec Ideal Cert.KernelIdeal.S800000x40 .f32) (x2 : FVec Ideal Cert.KernelIdeal.S800000 .f32) :
    Cert.KernelIdeal.Scale3.scaled g (shapeCast Cert.KernelIdeal.S800000x1 x2 Cert.KernelIdeal.Gen.shapeCasts_S800000_S800000x1) = mulf (val_main_v34 (F := Ideal) x2) g := by
  funext i
  rw [mulf_apply, val_main_v34_apply, val_main_v26_apply]
  show g i * shapeCast Cert.KernelIdeal.S800000x1 x2 Cert.KernelIdeal.Gen.shapeCasts_S800000_S800000x1 (Cert.KernelIdeal.Scale3.rowOf i) = _
  rw [mul_comm]
  congr 1
  exact col_apply x2 _ _ _ rfl

/-! ## The wrapped index column -/

theorem wrap_eq (x1 : IVec Cert.KernelIdeal.S2x800000 32) :
    Cert.KernelIdeal.Take.wrapCol (shapeCast Cert.KernelIdeal.S800000 (extractStridedSlice Cert.KernelIdeal.S1x800000 ![0, 0] x1 Cert.KernelIdeal.Gen.slices_S2x800000_S1x800000_0_0) Cert.KernelIdeal.Gen.shapeCasts_S1x800000_S800000) = val_main_v14 (F := Ideal) x1 := rfl

theorem wrap_eq2 (x1 : IVec Cert.KernelIdeal.S2x800000 32) :
    Cert.KernelIdeal.Take.wrapCol (shapeCast Cert.KernelIdeal.S800000 (extractStridedSlice Cert.KernelIdeal.S1x800000 ![0, 0] x1 Cert.KernelIdeal.Gen.slices_S2x800000_S1x800000_0_0) Cert.KernelIdeal.Gen.shapeCasts_S1x800000_S800000) = val_main_v32 (F := Ideal) x1 := rfl

end Cert.StageEq

end
-- ==== Proof.RefLogSoftmax.lean ====
/-
  The reference's log-softmax stage: the last stage of the reference is the row-wise log-softmax of the stage before
  it. The reference takes each row's maximum by a reduction from minus infinity (and once more against a broadcast
  minus infinity, which changes nothing), subtracts it, sums the exponentials along the row from zero, and subtracts
  the logarithm of that sum.
-/
import proofs.«428991_j8186207667012_2_alg».proof.Proof.RefRead
import proofs.«428991_j8186207667012_2_alg».proof.Proof.Spec
import Idealize.ShloMosaic.Lib.Pipeline.Value
import Idealize.ShloMosaic.Lib.ValueIdx
import Idealize.ShloMosaic.PureOps.Ideal.Laws

noncomputable section

namespace Cert.ReferenceIdeal.RefLS

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The reduction over the columns, as a fact naming the index it inserts. -/
theorem red : S50000x40.Reduces [1] S50000 := by decide

/-- The index the reduction over the columns inserts column k into at row r is (r, k). -/
theorem lift_eq (r : Fin 50000) (k : Fin 40) : red.lift (ix1 r) k = ix2 r k := by
  funext a; apply Fin.ext
  match a with
  | ⟨0, _⟩ => rfl
  | ⟨1, _⟩ => rfl

/-- Minus infinity is below every extended real, so a maximum with it changes nothing. -/
theorem negInf_le (y : EReal) : Cert.Spec.negInf ≤ y := by
  show Ideal.ofBits .f32 0xFF800000#32 ≤ y
  simp [Ideal.ofBits, Ideal.ieee]

/-- From minus infinity the host's reduction by maximum over the columns is, at row r, the row's maximum. -/
theorem hostMax (y : FVec Ideal S50000x40 .f32) (r : Fin 50000) :
    Host.reduce FloatOps.maximumf y (constant (F := Ideal) S_ .f32 0xFF800000#32) reducesTo_S50000x40_S50000_d1 h_S_ (ix1 r)
      = Cert.Spec.rowMax y r := by
  rw [Host.reduce_eq_fold_single FloatOps.maximumf y _ reducesTo_S50000x40_S50000_d1 red h_S_]
  have hf : (y ∘ red.lift (ix1 r)) = fun k : Fin 40 => y (ix2 r k) := funext fun k => congrArg y (lift_eq r k)
  exact congrArg (fun f => Finset.fold max (Ideal.ofBits .f32 0xFF800000#32) f (Finset.univ : Finset (Fin 40))) hf

section Stages
variable (x0 : (⟨S50000x512, .f32⟩ : BufTy).Contents (Elt Ideal)) (x1 : (⟨S2x800000, .i32⟩ : BufTy).Contents (Elt Ideal)) (x2 : (⟨S800000, .f32⟩ : BufTy).Contents (Elt Ideal)) (x3 : (⟨S512x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal))

/-- The row maximum the reference broadcasts: at row r, the maximum of row r of the stage before. -/
theorem max_at (r : Fin 50000) :
    ReadP.val_main_call1_v2 (F := Ideal) x0 x1 x2 x3 x4 x5 x6 (ix1 r) = Cert.Spec.rowMax (ReadP.val_main_v38 (F := Ideal) x0 x1 x2 x3 x4 x5 x6) r := by
  rw [ReadP.val_main_call1_v2_apply, ReadP.val_main_call1_v1_apply, ReadP.val_main_call1_cst_0_apply]
  unfold ReadP.val_main_call1_v0
  generalize ReadP.val_main_v38 (F := Ideal) x0 x1 x2 x3 x4 x5 x6 = y
  exact (congrArg (max Cert.Spec.negInf) (hostMax y r)).trans (max_eq_right (negInf_le _))

/-- The shifted entry: the entry less its row's maximum. -/
theorem shifted_at (r : Fin 50000) (j : Fin 40) :
    ReadP.val_main_call1_v5 (F := Ideal) x0 x1 x2 x3 x4 x5 x6 (ix2 r j)
      = ReadP.val_main_v38 (F := Ideal) x0 x1 x2 x3 x4 x5 x6 (ix2 r j) - Cert.Spec.rowMax (ReadP.val_main_v38 (F := Ideal) x0 x1 x2 x3 x4 x5 x6) r := by
  rw [ReadP.val_main_call1_v5_apply, ReadP.val_main_call1_v4_apply, ReadP.val_main_call1_v3_apply]
  have hi : ReadP.idx_main_call1_v3 (ReadP.idx_main_call1_v4 (ix2 r j)) = ix1 r := by
    funext a; match a with | ⟨0, _⟩ => rfl
  rw [hi, max_at]
  rfl

/-- The row sum: at row r, the sum of the exponentials of row r's shifted entries. -/
theorem sum_at (r : Fin 50000) :
    ReadP.val_main_call1_v7 (F := Ideal) x0 x1 x2 x3 x4 x5 x6 (ix1 r) = Cert.Spec.rowExpSum (ReadP.val_main_v38 (F := Ideal) x0 x1 x2 x3 x4 x5 x6) r := by
  rw [ReadP.val_main_call1_v7_apply, ReadP.val_main_call1_cst_1_apply]
  show Ideal.ofBits .f32 0x00000000#32 + _ = _
  rw [Ideal.ofBits_zero_f32, zero_add]
  unfold Cert.Spec.rowExpSum
  refine Finset.sum_congr rfl fun k _ => ?_
  have hi : ReadP.idx_main_call1_v7 (ix1 r) k = ix2 r k := by
    funext a; match a with | ⟨0, _⟩ => rfl | ⟨1, _⟩ => rfl
  rw [hi, ReadP.val_main_call1_v6_apply, shifted_at, Ideal.hostUnary_exp_def]

end Stages

/-- The reference's last stage is the log-softmax of the stage before it. -/
theorem ref_logSoftmax (x0 : (⟨S50000x512, .f32⟩ : BufTy).Contents (Elt Ideal)) (x1 : (⟨S2x800000, .i32⟩ : BufTy).Contents (Elt Ideal)) (x2 : (⟨S800000, .f32⟩ : BufTy).Contents (Elt Ideal)) (x3 : (⟨S512x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal)) :
    ReadP.val_main_v39 (F := Ideal) x0 x1 x2 x3 x4 x5 x6 = Cert.Spec.logSoftmax (ReadP.val_main_v38 (F := Ideal) x0 x1 x2 x3 x4 x5 x6) := by
  funext i
  obtain ⟨r, j, rfl⟩ : ∃ (r : Fin 50000) (j : Fin 40), i = ix2 r j := ⟨i 0, i 1, eq_ix2 i⟩
  rw [Cert.Spec.logSoftmax_apply, ReadP.val_main_v39_apply, shifted_at, ReadP.val_main_call1_v10_apply,
    ReadP.val_main_call1_v9_apply, ReadP.val_main_call1_v8_apply]
  have hi : ReadP.idx_main_call1_v8 (ReadP.idx_main_call1_v10 (ix2 r j)) = ix1 r := by
    funext a; match a with | ⟨0, _⟩ => rfl
  rw [hi, sum_at, Ideal.hostUnary_log_def]
  rfl

end Cert.ReferenceIdeal.RefLS

end
-- ==== Proof.Bridge.lean ====
/-
  The two programs compute one function. Over any seven argument arrays whose source indices lie in [0, 50000),
  the kernel's composition of stages is the reference's last stage: the two affine maps are the host's contraction
  plus the broadcast bias (the same sum over the contracted axis), the take of rows is the host's gather because
  no row is masked, a row times its weight is the weight times the row, the scatter-adds are the same operation
  applied to equal updates, and the log-softmax is the reference's chain of row maximum, shift, exponential, row
  sum and logarithm.
-/
import proofs.«428991_j8186207667012_2_alg».proof.Proof.KValue
import proofs.«428991_j8186207667012_2_alg».proof.Proof.StageEq
import proofs.«428991_j8186207667012_2_alg».proof.Proof.RefLogSoftmax

set_option maxRecDepth 16384

noncomputable section

namespace Cert.Bridge

open Idealize.ShloMosaic Idealize.ShloMosaic.TcCoe Idealize.SL.Sem
open Cert.KernelIdeal.HostV (srcOf dstOf sum64 sum40)

variable (x0 : FVec Ideal Cert.KernelIdeal.S50000x512 .f32) (x1 : IVec Cert.KernelIdeal.S2x800000 32) (x2 : FVec Ideal Cert.KernelIdeal.S800000 .f32)
  (x3 : FVec Ideal Cert.KernelIdeal.S512x64 .f32) (x4 : FVec Ideal Cert.KernelIdeal.S64 .f32) (x5 : FVec Ideal Cert.KernelIdeal.S64x40 .f32) (x6 : FVec Ideal Cert.KernelIdeal.S40 .f32)

/-- The weight column and the two bias rows, as the kernel's first stretch makes them. -/
abbrev wcol : FVec Ideal Cert.KernelIdeal.S800000x1 .f32 := shapeCast Cert.KernelIdeal.S800000x1 x2 Cert.KernelIdeal.Gen.shapeCasts_S800000_S800000x1
abbrev b1 : FVec Ideal Cert.KernelIdeal.S1x64 .f32 := shapeCast Cert.KernelIdeal.S1x64 x4 Cert.KernelIdeal.Gen.shapeCasts_S64_S1x64
abbrev b2 : FVec Ideal Cert.KernelIdeal.S1x40 .f32 := shapeCast Cert.KernelIdeal.S1x40 x6 Cert.KernelIdeal.Gen.shapeCasts_S40_S1x40

/-- The kernel's second aggregation as a function of the arguments. -/
abbrev kernelAgg2 : FVec Ideal Cert.KernelIdeal.S50000x40 .f32 :=
  sum40 (dstOf x1) (Cert.KernelIdeal.Scale3.scaled (Cert.KernelIdeal.Take.take40 (Cert.KernelIdeal.Linear2.affine
    (sum64 (dstOf x1) (Cert.KernelIdeal.Scale1.scaled (Cert.KernelIdeal.Take.take64 (Cert.KernelIdeal.Linear0.affine x0 x3 (b1 x4)) (srcOf x1)) (wcol x2)))
    x5 (b2 x6)) (srcOf x1)) (wcol x2))

variable (hs : ∀ e : Cert.KernelIdeal.S800000.Idx, 0 ≤ (srcOf x1 e).toInt ∧ (srcOf x1 e).toInt < 50000)
include hs

/-- First layer, rows taken: the reference's gather of its first layer. -/
theorem take1 : Cert.KernelIdeal.Take.take64 (Cert.KernelIdeal.Linear0.affine x0 x3 (b1 x4)) (srcOf x1) = Cert.ReferenceIdeal.ReadP.val_main_v15 (F := Ideal) x0 x1 x3 x4 := by
  rw [Cert.KernelIdeal.Take.take64_eq _ _ hs, Cert.StageEq.affine1_eq, Cert.StageEq.wrap_eq]
  rfl

/-- First aggregation. -/
theorem agg1 : sum64 (dstOf x1) (Cert.KernelIdeal.Scale1.scaled (Cert.KernelIdeal.Take.take64 (Cert.KernelIdeal.Linear0.affine x0 x3 (b1 x4)) (srcOf x1)) (wcol x2))
    = Cert.ReferenceIdeal.ReadP.val_main_v20 (F := Ideal) x0 x1 x2 x3 x4 := by
  rw [take1 x0 x1 x3 x4 hs, Cert.StageEq.scaled1_eq]
  rfl

/-- Second layer, rows taken. -/
theorem take2 : Cert.KernelIdeal.Take.take40 (Cert.KernelIdeal.Linear2.affine
    (sum64 (dstOf x1) (Cert.KernelIdeal.Scale1.scaled (Cert.KernelIdeal.Take.take64 (Cert.KernelIdeal.Linear0.affine x0 x3 (b1 x4)) (srcOf x1)) (wcol x2))) x5 (b2 x6)) (srcOf x1)
    = Cert.ReferenceIdeal.ReadP.val_main_v33 (F := Ideal) x0 x1 x2 x3 x4 x5 x6 := by
  rw [Cert.KernelIdeal.Take.take40_eq _ _ hs, agg1 x0 x1 x2 x3 x4 hs, Cert.StageEq.affine2_eq, Cert.StageEq.wrap_eq2]
  rfl

/-- Second aggregation. -/
theorem agg2 : kernelAgg2 x0 x1 x2 x3 x4 x5 x6 = Cert.ReferenceIdeal.ReadP.val_main_v38 (F := Ideal) x0 x1 x2 x3 x4 x5 x6 := by
  unfold kernelAgg2
  rw [take2 x0 x1 x2 x3 x4 x5 x6 hs, Cert.StageEq.scaled3_eq]
  rfl

/-- The kernel's function of the arguments is the reference's result stage. -/
theorem result_eq : Cert.Spec.logSoftmax (kernelAgg2 x0 x1 x2 x3 x4 x5 x6) = Cert.ReferenceIdeal.ReadP.val_main_v39 (F := Ideal) x0 x1 x2 x3 x4 x5 x6 := by
  rw [agg2 x0 x1 x2 x3 x4 x5 x6 hs, Cert.ReferenceIdeal.RefLS.ref_logSoftmax]

end Cert.Bridge

end
-- ==== Proof.PreSrc.lean ====
/-
  The precondition's last clause, read back: every entry of row 0 of the index table, read as a
  signed word, lies in [0, 50000).

  The precondition is a conjunction of seven "all entries" tests. Its last conjunct reduces by "and",
  over all 800000 entries, the conjunction of the two signed comparisons 0 ≤ s and s < 50000 of the
  table's row 0. The whole being 1, that conjunct is 1, so both comparisons hold at every entry.
-/
import proofs.«428991_j8186207667012_2_alg».proof.Pre_finite_inputs
import Idealize.ShloMosaic.Lib.ReduceAll
import Idealize.ShloMosaic.Lib.ValueIdx
import Idealize.ShloMosaic.PureOps.Ideal

noncomputable section

namespace Cert.Pre_finite_inputs.Src

open Idealize.ShloMosaic Cert.Pre_finite_inputs

variable [Facts]
open Facts

/-- The rank-0 shape has one index. -/
instance : Subsingleton S_.Idx := ⟨fun a b => funext fun d => d.elim0⟩

theorem src_in_range (a0 : FVec Ideal S50000x512 .f32) (a1 : IVec S2x800000 32) (a2 : FVec Ideal S800000 .f32) (a3 : FVec Ideal S512x64 .f32) (a4 : FVec Ideal S64 .f32) (a5 : FVec Ideal S64x40 .f32) (a6 : FVec Ideal S40 .f32)
    (h : fn (F := Ideal) a0 a1 a2 a3 a4 a5 a6 = fun _ => 1#1) (e : S800000.Idx) :
    0 ≤ (shapeCast S800000 (extractStridedSlice S1x800000 ![0, 0] a1 slices_S2x800000_S1x800000_0_0) shapeCasts_S1x800000_S800000 e).toInt
    ∧ (shapeCast S800000 (extractStridedSlice S1x800000 ![0, 0] a1 slices_S2x800000_S1x800000_0_0) shapeCasts_S1x800000_S800000 e).toInt < 50000 := by
  have h0 := congrFun h ValueIdx.ix0
  dsimp only [fn, fn_part1, fn_part2] at h0
  generalize shapeCast S800000 (extractStridedSlice S1x800000 ![0, 0] a1 slices_S2x800000_S1x800000_0_0) shapeCasts_S1x800000_S800000 = s at h0 ⊢
  -- the last conjunct of the whole
  have h1 := (IntOp.andi_eq_one.1 h0).2
  -- the reduce by "and" over all entries, at entry e
  have h2 := Host.reduce_andi_all _ _ _ _ _ h1 e
  obtain ⟨hge, hlt⟩ := IntOp.andi_eq_one.1 h2
  have g0 : (0#32 : BitVec 32).toInt ≤ (s e).toInt := IntOp.cmpi_sge.1 hge
  have g1 : (s e).toInt < (50000#32 : BitVec 32).toInt := IntOp.cmpi_slt.1 hlt
  have e0 : (0#32 : BitVec 32).toInt = 0 := by decide
  have e1 : (50000#32 : BitVec 32).toInt = 50000 := by decide
  omega

end Cert.Pre_finite_inputs.Src

end
-- ==== Proof.lean ====
/-
  The certificate of a two-layer graph convolution followed by a row-wise log-softmax. Both programs compute, on
  every device, from features x [50000, 512], an edge table [2, 800000] of source and target node indices, edge
  weights [800000] and two affine layers (W1, b1), (W2, b2):
      h1 = x · W1 + b1,      a1 = Σ over edges e into a node of  weight(e) · h1[source(e)],
      h2 = max(a1, 0) · W2 + b2,      a2 = Σ over edges e into a node of  weight(e) · h2[source(e)],
      result = a2 − rowmax(a2) − log Σ exp(a2 − rowmax(a2)).
  The kernel runs the two affine maps, the two scalings and the log-softmax as five launches over row blocks, with
  the gathers of rows and the scatter-adds between them; the reference runs everything as host operations. Over the
  extended reals the narrowing of the factors before the kernel's products is the identity and a product into a zero
  accumulator is the host's contraction, so the two programs agree stage by stage — except that the kernel's row take
  fills a row whose source index falls outside [0, 50000) with the word 0x7FC00000 where the reference's gather clamps
  the index. The precondition therefore asks, beside finite float inputs, that every source index lie in [0, 50000):
  then no row is filled and the take is the gather. The frames of the two kernel programs are the generated ones; the
  reference's frame is its run with the result dropped; the ideal pass rewrote nothing, so the kernel's idealization
  claims nothing.
-/
import proofs.«428991_j8186207667012_2_alg».proof.Defs
import proofs.«428991_j8186207667012_2_alg».proof.Proof.Gen.Kernel
import proofs.«428991_j8186207667012_2_alg».proof.Proof.Gen.Kernel.Frame
import proofs.«428991_j8186207667012_2_alg».proof.Proof.Gen.KernelIdeal
import proofs.«428991_j8186207667012_2_alg».proof.Proof.Gen.KernelIdeal.Frame
import proofs.«428991_j8186207667012_2_alg».proof.Proof.Gen.ReferenceIdeal
import proofs.«428991_j8186207667012_2_alg».proof.Proof.Gen.Pre_finite_inputs
import proofs.«428991_j8186207667012_2_alg».proof.Proof.RefRead
import proofs.«428991_j8186207667012_2_alg».proof.Proof.KValue
import proofs.«428991_j8186207667012_2_alg».proof.Proof.Bridge
import proofs.«428991_j8186207667012_2_alg».proof.Proof.PreSrc

set_option maxRecDepth 16384

noncomputable section

namespace Cert.Proof

open Idealize.ShloMosaic Idealize.SL.Sem

/-- The word-level kernel runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The reference runs, its arguments unchanged: its run with the result's equation dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- From memories agreeing on the arguments both programs end, the kernel's result buffer at its composition of
    stages, the reference's at its last stage: one function of the arguments when the source indices are in range,
    which the precondition says. -/
theorem algebraic : Cert.algebraic_KernelIdeal_ReferenceIdeal := by
  intro m ρ m' ρ' hpre hagree
  refine ⟨fun c => Cert.Spec.logSoftmax (Cert.KernelIdeal.KValue.kA2 m c), Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, (hagree c).1, (hagree c).2.1, (hagree c).2.2.1, (hagree c).2.2.2.1,
    (hagree c).2.2.2.2.1, (hagree c).2.2.2.2.2.1, (hagree c).2.2.2.2.2.2]
  exact (Cert.Bridge.result_eq _ _ _ _ _ _ _
    (fun e => Cert.Pre_finite_inputs.Src.src_in_range _ _ _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
